-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x500000 : Shape := ⟨2, ![2, 500000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S1x500000 : Shape := ⟨2, ![1, 500000]⟩
abbrev S500000 : Shape := ⟨1, ![500000]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part2 {F : FTy → Type} [FloatOps F] (main_arg1 : IVec S2x500000 32) (main_v33 : IVec S_ 1) : IVec S_ 1 :=
  let main_v34 : IVec S1x500000 32 := (extractStridedSlice S1x500000 ![0, 0] · slices_S2x500000_S1x500000_0_0) main_arg1
  let main_v35 : IVec S500000 32 := shapeCast S500000 main_v34 shapeCasts_S1x500000_S500000
  let main_c_12 : IVec S_ 32 := constantI S_ 32 4294917296#32
  let main_v36 : IVec S500000 32 := broadcastInDim S500000 ![] bcast_S_S500000 main_c_12
  let main_v37 : IVec S500000 1 := cmpi .sge main_v35 main_v36
  let main_v38 : IVec S1x500000 32 := (extractStridedSlice S1x500000 ![0, 0] · slices_S2x500000_S1x500000_0_0) main_arg1
  let main_v39 : IVec S500000 32 := shapeCast S500000 main_v38 shapeCasts_S1x500000_S500000
  let main_c_13 : IVec S_ 32 := constantI S_ 32 50000#32
  let main_v40 : IVec S500000 32 := broadcastInDim S500000 ![] bcast_S_S500000 main_c_13
  let main_v41 : IVec S500000 1 := cmpi .slt main_v39 main_v40
  let main_v42 : IVec S500000 1 := andi main_v37 main_v41
  let main_c_14 : IVec S_ 1 := constantI S_ 1 1#1
  let main_v43 : IVec S_ 1 := (fun x v => Host.reduce IntOp.andi x v reducesTo_S500000_S_d0 h_S_) main_v42 main_c_14
  let main_v44 : IVec S_ 1 := andi main_v33 main_v43
  main_v44

def fn_part1 {F : FTy → Type} [FloatOps F] (main_arg1 : IVec S2x500000 32) (main_arg5 : FVec F S128 .f32) (main_arg6 : FVec F S256x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S50000x512 .f32) (main_arg1 : IVec S2x500000 32) (main_arg2 : FVec F S512x256 .f32) (main_arg3 : FVec F S256 .f32) (main_arg4 : FVec F S256x128 .f32) (main_arg5 : FVec F S128 .f32) (main_arg6 : FVec F S256x128 .f32) (main_arg7 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_arg6 main_arg7 main_v13 main_v16
-- ==== Kernel.lean ====
abbrev S50000x512 : Shape := ⟨2, ![50000, 512]⟩
abbrev S2x500000 : Shape := ⟨2, ![2, 500000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S1x256 : Shape := ⟨2, ![1, 256]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S1 : Shape := ⟨1, ![1]⟩
abbrev S1x1 : Shape := ⟨2, ![1, 1]⟩
abbrev S500000x256 : Shape := ⟨2, ![500000, 256]⟩
abbrev S1x128 : Shape := ⟨2, ![1, 128]⟩
abbrev S50000x128 : Shape := ⟨2, ![50000, 128]⟩
abbrev S2000x128 : Shape := ⟨2, ![2000, 128]⟩
abbrev S500000x128 : Shape := ⟨2, ![500000, 128]⟩

abbrev nBuf : Space → Nat
  | .hbm => 149
  | .vmem => 48
  | .smem => 0
  | _ => 0

abbrev hbmTy0_0 (i : Nat) : BufTy := match i % 128 with
  | 0 => ⟨S50000x512, .f32⟩
  | 1 => ⟨S2x500000, .i32⟩
  | 2 => ⟨S512x256, .f32⟩
  | 3 => ⟨S256, .f32⟩
  | 4 => ⟨S256x128, .f32⟩
  | 5 => ⟨S128, .f32⟩
  | 6 => ⟨S256x128, .f32⟩
  | 7 => ⟨S128, .f32⟩
  | 8 => ⟨S1x500000, .i32⟩
  | 9 => ⟨S500000, .i32⟩
  | 10 => ⟨S1x500000, .i32⟩
  | 11 => ⟨S500000, .i32⟩
  | 12 => ⟨S_, .f32⟩
  | 13 => ⟨S500000, .f32⟩
  | 14 => ⟨S_, .f32⟩
  | 15 => ⟨S50000, .f32⟩
  | 16 => ⟨S500000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000, .f32⟩
  | 40 => ⟨S500000, .f32⟩
  | 41 => ⟨S_, .f32⟩
  | 42 => ⟨S50000, .f32⟩
  | 43 => ⟨S50000, .f32⟩
  | 44 => ⟨S50000x1, .f32⟩
  | 45 => ⟨S1x256, .f32⟩
  | 46 => ⟨S50000x256, .f32⟩
  | 47 => ⟨S50000x256, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S1, .i32⟩
  | 57 => ⟨S_, .i32⟩
  | 58 => ⟨S500000x1, .i32⟩
  | 59 => ⟨S500000x1, .i1⟩
  | 60 => ⟨S1x1, .i32⟩
  | 61 => ⟨S500000x1, .i32⟩
  | 62 => ⟨S500000x1, .i1⟩
  | 63 => ⟨S500000x1, .i1⟩
  | 64 => ⟨S_, .i1⟩
  | 65 => ⟨S500000, .i1⟩
  | 66 => ⟨S500000x256, .f32⟩
  | 67 => ⟨S500000x256, .i1⟩
  | 68 => ⟨S_, .f32⟩
  | 69 => ⟨S500000x256, .f32⟩
  | 70 => ⟨S500000x256, .f32⟩
  | 71 => ⟨S500000x1, .f32⟩
  | 72 => ⟨S500000x256, .f32⟩
  | 73 => ⟨S500000x256, .f32⟩
  | 74 => ⟨S_, .f32⟩
  | 75 => ⟨S50000x256, .f32⟩
  | 76 => ⟨S500000x1, .i32⟩
  | 77 => ⟨S50000x256, .f32⟩
  | 78 => ⟨S50000x256, .f32⟩
  | 79 => ⟨S50000x1, .f32⟩
  | 80 => ⟨S1x128, .f32⟩
  | 81 => ⟨S50000x128, .f32⟩
  | 82 => ⟨S50000x128, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S1, .i32⟩
  | 92 => ⟨S_, .i32⟩
  | 93 => ⟨S500000x1, .i32⟩
  | 94 => ⟨S500000x1, .i1⟩
  | 95 => ⟨S1x1, .i32⟩
  | 96 => ⟨S500000x1, .i32⟩
  | 97 => ⟨S500000x1, .i1⟩
  | 98 => ⟨S500000x1, .i1⟩
  | 99 => ⟨S_, .i1⟩
  | 100 => ⟨S500000, .i1⟩
  | 101 => ⟨S500000x128, .f32⟩
  | 102 => ⟨S500000x128, .i1⟩
  | 103 => ⟨S_, .f32⟩
  | 104 => ⟨S500000x128, .f32⟩
  | 105 => ⟨S500000x128, .f32⟩
  | 106 => ⟨S500000x1, .f32⟩
  | 107 => ⟨S500000x128, .f32⟩
  | 108 => ⟨S500000x128, .f32⟩
  | 109 => ⟨S_, .f32⟩
  | 110 => ⟨S50000x128, .f32⟩
  | 111 => ⟨S500000x1, .i32⟩
  | 112 => ⟨S50000x128, .f32⟩
  | 113 => ⟨S50000x128, .f32⟩
  | 114 => ⟨S50000x1, .f32⟩
  | 115 => ⟨S1x128, .f32⟩
  | 116 => ⟨S50000x128, .f32⟩
  | 117 => ⟨S50000x128, .f32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S1, .i32⟩
  | 127 => ⟨S_, .i32⟩
  | _ => ⟨S50000x512, .f32⟩

abbrev hbmTy0_1 (i : Nat) : BufTy := match i % 128 with
  | 0 => ⟨S500000x1, .i32⟩
  | 1 => ⟨S500000x1, .i1⟩
  | 2 => ⟨S1x1, .i32⟩
  | 3 => ⟨S500000x1, .i32⟩
  | 4 => ⟨S500000x1, .i1⟩
  | 5 => ⟨S500000x1, .i1⟩
  | 6 => ⟨S_, .i1⟩
  | 7 => ⟨S500000, .i1⟩
  | 8 => ⟨S500000x128, .f32⟩
  | 9 => ⟨S500000x128, .i1⟩
  | 10 => ⟨S_, .f32⟩
  | 11 => ⟨S500000x128, .f32⟩
  | 12 => ⟨S500000x128, .f32⟩
  | 13 => ⟨S500000x1, .f32⟩
  | 14 => ⟨S500000x128, .f32⟩
  | 15 => ⟨S500000x128, .f32⟩
  | 16 => ⟨S_, .f32⟩
  | 17 => ⟨S50000x128, .f32⟩
  | 18 => ⟨S500000x1, .i32⟩
  | 19 => ⟨S50000x128, .f32⟩
  | 20 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x1, .f32⟩
  | .local _ .vmem, ⟨4, _⟩ => ⟨S2000x1, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x256, .f32⟩
  | .local _ .vmem, ⟨33, _⟩ => ⟨S2000x256, .f32⟩
  | .local _ .vmem, ⟨34, _⟩ => ⟨S256x128, .f32⟩
  | .local _ .vmem, ⟨35, _⟩ => ⟨S2000x1, .f32⟩
  | .local _ .vmem, ⟨36, _⟩ => ⟨S2000x1, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_6 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41_0 : Ref sig .tc := ⟨.hbm, 81, rfl⟩
abbrev main_v41_1 : Ref sig .tc := ⟨.hbm, 82, rfl⟩
abbrev main_call1_c : Ref sig .tc := ⟨.hbm, 83, rfl⟩
abbrev main_call1_v0 : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_c_1 : Ref sig .tc := ⟨.hbm, 91, rfl⟩
abbrev main_call1_c_2 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_c_3 : Ref sig .tc := ⟨.hbm, 99, rfl⟩
abbrev main_call1_v12 : Ref sig .tc := ⟨.hbm, 100, rfl⟩
abbrev main_call1_v13 : Ref sig .tc := ⟨.hbm, 101, rfl⟩
abbrev main_call1_v14 : Ref sig .tc := ⟨.hbm, 102, rfl⟩
abbrev main_call1_cst : Ref sig .tc := ⟨.hbm, 103, rfl⟩
abbrev main_call1_v15 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_cst_7 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52_0 : Ref sig .tc := ⟨.hbm, 116, rfl⟩
abbrev main_v52_1 : Ref sig .tc := ⟨.hbm, 117, rfl⟩
abbrev main_call2_c : Ref sig .tc := ⟨.hbm, 118, rfl⟩
abbrev main_call2_v0 : Ref sig .tc := ⟨.hbm, 119, rfl⟩
abbrev main_call2_v1 : Ref sig .tc := ⟨.hbm, 120, rfl⟩
abbrev main_call2_c_0 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_c_1 : Ref sig .tc := ⟨.hbm, 126, rfl⟩
abbrev main_call2_c_2 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_c_3 : Ref sig .tc := ⟨.hbm, 134, rfl⟩
abbrev main_call2_v12 : Ref sig .tc := ⟨.hbm, 135, rfl⟩
abbrev main_call2_v13 : Ref sig .tc := ⟨.hbm, 136, rfl⟩
abbrev main_call2_v14 : Ref sig .tc := ⟨.hbm, 137, rfl⟩
abbrev main_call2_cst : Ref sig .tc := ⟨.hbm, 138, rfl⟩
abbrev main_call2_v15 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_cst_8 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem4_1 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  shapeCasts_S50000_S50000x1 : S50000.ShapeCasts S50000x1
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x256_0 : S500000.BroadcastsInDim S500000x256 (![0] : Fin 1 → Fin S500000x256.rank)
  bcast_S_S500000x256 : S_.BroadcastsInDim S500000x256 (![] : Fin 0 → Fin S500000x256.rank)
  bcast_S500000x1_S500000x256_0_1 : S500000x1.BroadcastsInDim S500000x256 (![0, 1] : Fin 2 → Fin S500000x256.rank)
  bcast_S_S50000x256 : S_.BroadcastsInDim S50000x256 (![] : Fin 0 → Fin S50000x256.rank)
  shapeCasts_S2000x256_S2000x256 : S2000x256.ShapeCasts S2000x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  shapeCasts_S2000x128_S2000x128 : S2000x128.ShapeCasts S2000x128
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S2000x512_S512x256_S2000x256_1_0_0_1_n_n_wf : DotDims.WF S2000x512 S512x256 S2000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S2000x256_S256x128_S2000x128_1_0_0_1_n_n_wf : DotDims.WF S2000x256 S256x128 S2000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v38) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v51) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v52_0) S2000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v52_1) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v59) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52_1) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x500000 : Shape := ⟨2, ![2, 500000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x256 : Shape := ⟨2, ![50000, 256]⟩
abbrev S500000x256 : Shape := ⟨2, ![500000, 256]⟩
abbrev S50000x1 : Shape := ⟨2, ![50000, 1]⟩
abbrev S1x256 : Shape := ⟨2, ![1, 256]⟩
abbrev S50000x128 : Shape := ⟨2, ![50000, 128]⟩
abbrev S500000x128 : Shape := ⟨2, ![500000, 128]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x500000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S500000, .f32⟩
  | .hbm, ⟨14, _⟩ => ⟨S_, .f32⟩
  | .hbm, ⟨15, _⟩ => ⟨S50000, .f32⟩
  | .hbm, ⟨16, _⟩ => ⟨S500000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000, .f32⟩
  | .hbm, ⟨40, _⟩ => ⟨S500000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x256, .f32⟩
  | .hbm, ⟨45, _⟩ => ⟨S_, .i32⟩
  | .hbm, ⟨46, _⟩ => ⟨S500000, .i32⟩
  | .hbm, ⟨47, _⟩ => ⟨S500000, .i1⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S500000x1, .i32⟩
  | .hbm, ⟨53, _⟩ => ⟨S500000x256, .f32⟩
  | .hbm, ⟨54, _⟩ => ⟨S500000x1, .f32⟩
  | .hbm, ⟨55, _⟩ => ⟨S500000x256, .f32⟩
  | .hbm, ⟨56, _⟩ => ⟨S500000x256, .f32⟩
  | .hbm, ⟨57, _⟩ => ⟨S_, .f32⟩
  | .hbm, ⟨58, _⟩ => ⟨S50000x256, .f32⟩
  | .hbm, ⟨59, _⟩ => ⟨S500000x1, .i32⟩
  | .hbm, ⟨60, _⟩ => ⟨S50000x256, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x128, .f32⟩
  | .hbm, ⟨81, _⟩ => ⟨S500000x1, .f32⟩
  | .hbm, ⟨82, _⟩ => ⟨S500000x128, .f32⟩
  | .hbm, ⟨83, _⟩ => ⟨S500000x128, .f32⟩
  | .hbm, ⟨84, _⟩ => ⟨S_, .f32⟩
  | .hbm, ⟨85, _⟩ => ⟨S50000x128, .f32⟩
  | .hbm, ⟨86, _⟩ => ⟨S500000x1, .i32⟩
  | .hbm, ⟨87, _⟩ => ⟨S50000x128, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .i32⟩
  | .hbm, ⟨97, _⟩ => ⟨S500000, .i32⟩
  | .hbm, ⟨98, _⟩ => ⟨S500000, .i1⟩
  | .hbm, ⟨99, _⟩ => ⟨S_, .i32⟩
  | .hbm, ⟨100, _⟩ => ⟨S500000, .i32⟩
  | .hbm, ⟨101, _⟩ => ⟨S500000, .i32⟩
  | .hbm, ⟨102, _⟩ => ⟨S500000, .i32⟩
  | .hbm, ⟨103, _⟩ => ⟨S500000x1, .i32⟩
  | .hbm, ⟨104, _⟩ => ⟨S500000x128, .f32⟩
  | .hbm, ⟨105, _⟩ => ⟨S500000x1, .f32⟩
  | .hbm, ⟨106, _⟩ => ⟨S500000x128, .f32⟩
  | .hbm, ⟨107, _⟩ => ⟨S500000x128, .f32⟩
  | .hbm, ⟨108, _⟩ => ⟨S_, .f32⟩
  | .hbm, ⟨109, _⟩ => ⟨S50000x128, .f32⟩
  | .hbm, ⟨110, _⟩ => ⟨S500000x1, .i32⟩
  | .hbm, ⟨111, _⟩ => ⟨S50000x128, .f32⟩
  | .hbm, ⟨112, _⟩ => ⟨S50000x1, .f32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_12 : Ref sig .tc := ⟨.hbm, 96, rfl⟩
abbrev main_v72 : Ref sig .tc := ⟨.hbm, 97, rfl⟩
abbrev main_v73 : Ref sig .tc := ⟨.hbm, 98, rfl⟩
abbrev main_c_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S50000x512_S512x256_S50000x256_1_0_0_1_n_n_wf : DotDims.WF S50000x512 S512x256 S50000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S50000x256_S256x128_S50000x128_1_0_0_1_n_n_wf : DotDims.WF S50000x256 S256x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.Spec.lean ====
/-
  The mathematics of one graph-convolution layer, over the extended reals, index by index.

  For node features `x` (one row per node) and weights `w`, the projection is the matrix product
  `T = x · w`. Each node keeps a share of its own projection, scaled by the reciprocal of its degree, plus
  the bias: the self term `T (i, c) · s i + b c`. The layer's output adds to it the messages aggregated from
  the node's in-edges, `A (i, c)`, and the first layer then clamps at zero.

  The two programs group the three summands differently: one adds the bias to the self-loop share first and
  the aggregate last, the other adds the aggregate to the self-loop share first and the bias last. Addition
  on the extended reals is associative with no side condition, so the two groupings are one number.
-/
import Idealize.ShloMosaic.PureOps.Ideal.Laws
import Idealize.ShloMosaic.Lib.ValueIdx

noncomputable section

open scoped BigOperators

namespace Cert.Gcn

open Idealize.ShloMosaic Idealize.ShloMosaic.ValueIdx

variable {M K N : ℕ}

/-- A real matrix of `a` rows and `b` columns, as a function of its index. -/
abbrev Mat (a b : ℕ) : Type := (⟨2, ![a, b]⟩ : Shape).Idx → EReal

/-- The matrix product, entry by entry: row `j 0` of `x` against column `j 1` of `w`. -/
def matT (x : Mat M K) (w : Mat K N) : Mat M N :=
  fun j => ∑ k : Fin K, x (ix2 (j 0) k) * w (ix2 k (j 1))

/-- The part of a layer's output that does not depend on the edges: the node's own projection scaled by its
    self-loop coefficient (a column), plus the bias (a row). -/
def selfTerm (T : Mat M N) (s : Mat M 1) (b : Mat 1 N) : Mat M N :=
  fun j => T j * s (ix2 (j 0) 0) + b (ix2 0 (j 1))

/-- The aggregate plus the self term. -/
def combine (A ST : Mat M N) : Mat M N := fun j => A j + ST j

/-- The aggregate plus the self term, clamped at zero. -/
def combineRelu (A ST : Mat M N) : Mat M N := fun j => max (A j + ST j) 0

/-- The other grouping of a layer's three summands: aggregate and self-loop share first, bias last. -/
def layerBiasLast (A T : Mat M N) (s : Mat M 1) (b : Mat 1 N) : Mat M N :=
  fun j => (A j + T j * s (ix2 (j 0) 0)) + b (ix2 0 (j 1))

/-- The two groupings agree: addition on the extended reals is associative. -/
theorem combine_selfTerm (A T : Mat M N) (s : Mat M 1) (b : Mat 1 N) :
    combine A (selfTerm T s b) = layerBiasLast A T s b :=
  funext fun _ => (add_assoc _ _ _).symm

/-- The same under the clamp at zero. -/
theorem combineRelu_selfTerm (A T : Mat M N) (s : Mat M 1) (b : Mat 1 N) :
    combineRelu A (selfTerm T s b) = fun j => max (layerBiasLast A T s b j) 0 :=
  funext fun _ => congrArg (max · 0) (add_assoc _ _ _).symm

end Cert.Gcn

end
-- ==== Proof.KernelValue.lean ====
/-
  The kernel program's values, as functions of its eight argument arrays.

  The graph enters through one integer array: row 0 of it is every edge's source node, row 1 its destination.
  From the destinations alone come each node's degree (in-edges plus the self loop), its reciprocal (the
  self-loop coefficient) and, per edge, the product of the two endpoints' inverse square-root degrees (the edge
  coefficient). These four arrays are shared by all three layers and are the same operations in both programs.

  A layer projects the node features (`matT`), looks up each edge's source row of the projection, scales it by
  the edge coefficient, and adds it into the destination's row (`aggOf…`); the output is that aggregate plus
  the self term (`Spec.lean`). The kernel's lookup is guarded: a source index is first wrapped (a negative one
  counts from the end), then tested against the range of rows, and a row whose index fails the test is
  replaced by a fill word before it is scaled. `inRows` is that test, `takeRows…` the guarded lookup.
-/
import proofs.«430112_j89627377533231_1_alg».proof.KernelIdeal
import proofs.«430112_j89627377533231_1_alg».proof.Proof.Gen.KernelIdeal
import proofs.«430112_j89627377533231_1_alg».proof.Proof.Gen.ReferenceIdeal.Read
import proofs.«430112_j89627377533231_1_alg».proof.Proof.Spec

noncomputable section

namespace Cert.Gcn

open Idealize.ShloMosaic Idealize.ShloMosaic.ValueIdx
open Cert.KernelIdeal Cert.KernelIdeal.Facts₀ Cert.KernelIdeal.Facts

/-- The edge list: two rows of 500000 node indices. -/
abbrev Edges : Type := (⟨S2x500000, .i32⟩ : BufTy).Contents (Elt Ideal)
/-- One 32-bit word per edge. -/
abbrev EdgeWords : Type := IVec S500000 32
/-- One extended real per edge. -/
abbrev EdgeReals : Type := FVec Ideal S500000 .f32

/-- Every edge's source node (row 0 of the edge list). -/
def srcOf (x1 : Edges) : EdgeWords := Cert.ReferenceIdeal.Read.val_main_v1 (F := Ideal) x1
/-- Every edge's destination node (row 1 of the edge list). -/
def dstOf (x1 : Edges) : EdgeWords := Cert.ReferenceIdeal.Read.val_main_v3 (F := Ideal) x1
/-- Every edge's coefficient: the product of its endpoints' inverse square-root degrees. -/
def edgeCoef (x1 : Edges) : EdgeReals := Cert.ReferenceIdeal.Read.val_main_v25 (F := Ideal) x1
/-- Every node's self-loop coefficient: the reciprocal of its degree. -/
def selfCoef (x1 : Edges) : FVec Ideal S50000 .f32 := Cert.ReferenceIdeal.Read.val_main_v27 (F := Ideal) x1
/-- The self-loop coefficients as a column. -/
def selfCol (x1 : Edges) : Mat 50000 1 := shapeCast S50000x1 (selfCoef x1) shapeCasts_S50000_S50000x1
/-- A bias of 256 entries as a row. -/
def biasRow256 (b : FVec Ideal S256 .f32) : Mat 1 256 := shapeCast S1x256 b shapeCasts_S256_S1x256
/-- A bias of 128 entries as a row. -/
def biasRow128 (b : FVec Ideal S128 .f32) : Mat 1 128 := shapeCast S1x128 b shapeCasts_S128_S1x128

/-- The source indices wrapped (a negative index counts from the last row) and laid out as a column of
    start indices for the row lookup. -/
def wrapCol (src : EdgeWords) : IVec S500000x1 32 :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 50000#32))) src)

/-- The range test of the guarded lookup, per edge: the wrapped index is at least 0 and at most 49999. -/
def inRows (src : EdgeWords) : IVec S500000 1 :=
  Host.reduce IntOp.andi
    (andi (cmpi .sge (wrapCol src) (broadcastInDim S500000x1 ![] bcast_S_S500000x1 (constantI S_ 32 0#32)))
      (cmpi .sle (wrapCol src) (broadcastInDim S500000x1 ![0, 1] bcast_S1x1_S500000x1_0_1
        (broadcastInDim S1x1 ![1] bcast_S1_S1x1_1 (constantI S1 32 49999#32)))))
    (constantI S_ 1 1#1) reducesTo_S500000x1_S500000_d1 h_S_

/-- The plain lookup of each edge's source row, 256 wide. -/
def lookRows256 (src : EdgeWords) (T : Mat 50000 256) : FVec Ideal S500000x256 .f32 :=
  Host.gather gather_S50000x256_S500000x1_S500000x256_1_0_n_n_0_1_1256 T (wrapCol src)
/-- The plain lookup of each edge's source row, 128 wide. -/
def lookRows128 (src : EdgeWords) (T : Mat 50000 128) : FVec Ideal S500000x128 .f32 :=
  Host.gather gather_S50000x128_S500000x1_S500000x128_1_0_n_n_0_1_1128 T (wrapCol src)

/-- The guarded lookup, 256 wide: the looked-up row where the range test passes, the fill word elsewhere. -/
def takeRows256 (src : EdgeWords) (T : Mat 50000 256) : FVec Ideal S500000x256 .f32 :=
  select (broadcastInDim S500000x256 ![0] bcast_S500000_S500000x256_0 (inRows src)) (lookRows256 src T)
    (broadcastInDim S500000x256 ![] bcast_S_S500000x256 (constant (F := Ideal) S_ .f32 0x7FC00000#32))
/-- The guarded lookup, 128 wide. -/
def takeRows128 (src : EdgeWords) (T : Mat 50000 128) : FVec Ideal S500000x128 .f32 :=
  select (broadcastInDim S500000x128 ![0] bcast_S500000_S500000x128_0 (inRows src)) (lookRows128 src T)
    (broadcastInDim S500000x128 ![] bcast_S_S500000x128 (constant (F := Ideal) S_ .f32 0x7FC00000#32))

/-- The aggregate, 256 wide: each edge's row, scaled by the edge's coefficient, added into its destination's row. -/
def aggOf256 (G : FVec Ideal S500000x256 .f32) (dst : EdgeWords) (coef : EdgeReals) : Mat 50000 256 :=
  Host.scatterAdd scatter_S50000x256_S500000x1_S500000x256_1_0_0_1
    (broadcastInDim S50000x256 ![] bcast_S_S50000x256 (constant (F := Ideal) S_ .f32 0x00000000#32))
    (broadcastInDim S500000x1 ![0] bcast_S500000_S500000x1_0 dst)
    (mulf G (broadcastInDim S500000x256 ![0, 1] bcast_S500000x1_S500000x256_0_1
      (broadcastInDim S500000x1 ![0] bcast_S500000_S500000x1_0 coef)))
/-- The aggregate, 128 wide. -/
def aggOf128 (G : FVec Ideal S500000x128 .f32) (dst : EdgeWords) (coef : EdgeReals) : Mat 50000 128 :=
  Host.scatterAdd scatter_S50000x128_S500000x1_S500000x128_1_0_0_1
    (broadcastInDim S50000x128 ![] bcast_S_S50000x128 (constant (F := Ideal) S_ .f32 0x00000000#32))
    (broadcastInDim S500000x1 ![0] bcast_S500000_S500000x1_0 dst)
    (mulf G (broadcastInDim S500000x128 ![0, 1] bcast_S500000x1_S500000x128_0_1
      (broadcastInDim S500000x1 ![0] bcast_S500000_S500000x1_0 coef)))

section Layers

variable (x0 : Mat 50000 512) (x1 : Edges) (x2 : Mat 512 256) (x3 : FVec Ideal S256 .f32)
  (x4 : Mat 256 128) (x5 : FVec Ideal S128 .f32) (x6 : Mat 256 128) (x7 : FVec Ideal S128 .f32)

/-- Layer 1's projection. -/
def proj1 : Mat 50000 256 := matT x0 x2
/-- Layer 1's self term. -/
def self1 : Mat 50000 256 := selfTerm (proj1 x0 x2) (selfCol x1) (biasRow256 x3)
/-- Layer 1's aggregate, by the guarded lookup. -/
def agg1 : Mat 50000 256 := aggOf256 (takeRows256 (srcOf x1) (proj1 x0 x2)) (dstOf x1) (edgeCoef x1)
/-- The hidden features: layer 1's output, clamped at zero. -/
def hidden : Mat 50000 256 := combineRelu (agg1 x0 x1 x2) (self1 x0 x1 x2 x3)

/-- A second-layer head (the same shape twice: one for each of the two results), over weights `w` and bias `b`. -/
def headProj (w : Mat 256 128) : Mat 50000 128 := matT (hidden x0 x1 x2 x3) w
def headSelf (w : Mat 256 128) (b : FVec Ideal S128 .f32) : Mat 50000 128 :=
  selfTerm (headProj x0 x1 x2 x3 w) (selfCol x1) (biasRow128 b)
def headAgg (w : Mat 256 128) : Mat 50000 128 :=
  aggOf128 (takeRows128 (srcOf x1) (headProj x0 x1 x2 x3 w)) (dstOf x1) (edgeCoef x1)
/-- A head's output: aggregate plus self term, no clamp. -/
def headOut (w : Mat 256 128) (b : FVec Ideal S128 .f32) : Mat 50000 128 :=
  combine (headAgg x0 x1 x2 x3 w) (headSelf x0 x1 x2 x3 w b)

end Layers

end Cert.Gcn

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Region0.lean ====
/-
  The first layer's projection region, read as whole arrays: the grid's 25 points each take 2000 rows of the
  node features, multiply them by the whole weight matrix, and write back 2000 rows of the projection and 2000
  rows of the self term. The row blocks tile the 50000 rows, so after the region the first output array is
  the matrix product and the second is the self term of it, at every index.
-/
import proofs.«430112_j89627377533231_1_alg».proof.Proof.Gen.KernelIdeal.Frame
import proofs.«430112_j89627377533231_1_alg».proof.Proof.Spec
import proofs.«430112_j89627377533231_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.Gcn.Region0

open Cert.KernelIdeal Cert.KernelIdeal.Gen Cert.Gcn

variable (V : (c : Dev nD) → (b : Ref sig .tc) → Buf (Elt Ideal) ((c : Thread nD τ).loc b))

/-- The region's six arrays as the region finds them, each at its literal type. -/
abbrev xA (c : Dev nD) : Mat 50000 512 := V c main_arg0
abbrev wA (c : Dev nD) : Mat 512 256 := V c main_arg2
abbrev sA (c : Dev nD) : Mat 50000 1 := V c main_v28
abbrev bA (c : Dev nD) : Mat 1 256 := V c main_v29

/-! ## The body's arithmetic at one entry of a block -/

/-- The zero offsets of a whole-buffer access, as the constant zero function. -/
theorem off_zero : (![0, 0] : Fin 2 → Nat) = fun _ => 0 := funext fun a => by fin_cases a <;> rfl

/-- The projection of a block at entry `(r, q)`: row `r` of the 2000 feature rows against column `q` of the weights.
    The narrowing of both operands is the identity on the extended reals and the accumulator starts at zero. -/
theorem proj_at (x0 : Vec Ideal S2000x512 .f32) (x1 : Vec Ideal S512x256 .f32) (r : Fin 2000) (q : Fin 256) :
    k0_pay1 (F := Ideal) x0 x1 (ix2 r q) = ∑ k : Fin 512, x0 (ix2 r k) * x1 (ix2 k q) := by
  unfold k0_pay1
  exact Cert.PlainDot.matmul_zero_apply (M := 2000) (K := 512) (N := 256) dot_S2000x512_S512x256_S2000x256_1_0_0_1_n_n rfl none
    (truncf (F := Ideal) .bf16 x0 bitsLt_bf16_f32) (truncf (F := Ideal) .bf16 x1 bitsLt_bf16_f32) (ix2 r q)

/-- The self term of a block at entry `(r, q)`: the projection there, times the coefficient of row `r` (a column
    broadcast along the row), plus the bias of column `q` (a row broadcast down the column). -/
theorem self_at (x0 : Vec Ideal S2000x512 .f32) (x1 : Vec Ideal S512x256 .f32) (x2 : Vec Ideal S2000x1 .f32)
    (x3 : Vec Ideal S1x256 .f32) (r : Fin 2000) (q : Fin 256) :
    k0_pay2 (F := Ideal) x0 x1 x2 x3 (ix2 r q)
      = (∑ k : Fin 512, x0 (ix2 r k) * x1 (ix2 k q)) * x2 (ix2 r 0) + x3 (ix2 0 q) := by
  unfold k0_pay2
  show addf (F := Ideal)
      (mulf (F := Ideal) (k0_pay1 (F := Ideal) x0 x1)
        (broadcastTo S2000x256 (shapeCast S2000x1 x2 shapeCasts_S2000x1_S2000x1) broadcasts_S2000x1_S2000x256))
      (broadcastTo S2000x256 (shapeCast S1x256 x3 shapeCasts_S1x256_S1x256) broadcasts_S1x256_S2000x256) (ix2 r q) = _
  rw [addf_apply, mulf_apply, proj_at, shapeCast_self, shapeCast_self]
  rw [broadcastTo_apply x2 broadcasts_S2000x1_S2000x256 (ix2 r q) (ix2 r 0) (by
        intro a
        match a with
        | ⟨0, _⟩ => rfl
        | ⟨1, _⟩ => rfl),
      broadcastTo_apply x3 broadcasts_S1x256_S2000x256 (ix2 r q) (ix2 0 q) (by
        intro a
        match a with
        | ⟨0, _⟩ => rfl
        | ⟨1, _⟩ => rfl)]

/-! ## Where each window's block sits -/

/-- The block indices over the grid's 25 points: the four row-blocked windows (features, coefficients and the two
    outputs) sit at row block `t` and column block 0; the two whole-array windows (weights, bias) at block `(0, 0)`. -/
theorem blk_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Every row block 0..24 of the projection's array is some point's. -/
theorem blk_onto_T : ∀ q0 : Fin 25, ∃ t : Fin cfg0.N, win0_4.index t = ![q0.val, 0] :=
  (by decide +kernel : ∀ q0 : Fin 25, ∃ t : Fin grid0.N, win0_4.index t = ![q0.val, 0])

/-- Every row block 0..24 of the self term's array is some point's. -/
theorem blk_onto_ST : ∀ q0 : Fin 25, ∃ t : Fin cfg0.N, win0_5.index t = ![q0.val, 0] :=
  (by decide +kernel : ∀ q0 : Fin 25, ∃ t : Fin grid0.N, win0_5.index t = ![q0.val, 0])

/-- Entry `(r, k)` of the feature block at point `t` is entry `(2000 t + r, k)` of the feature array. -/
theorem x_blk_at (c : Dev nD) (t : Fin cfg0.N) (r : Fin 2000) (k : Fin 512) (i : Fin 50000)
    (hi : i.val = t.val * 2000 + r.val) :
    (iblk0 (F := Ideal) V c 0 t : Vec Ideal S2000x512 .f32) (ix2 r k) = xA V c (ix2 i k) := by
  obtain ⟨e00, e01, -⟩ := blk_idx t
  show V c main_arg0 (((cfg0.win 0).blk t).view.emb (ix2 r k)) = V c main_arg0 (ix2 i k)
  refine congrArg (V c main_arg0) ?_
  funext a; apply Fin.ext
  match a with
  | ⟨0, _⟩ => show win0_0.index t (0 : Fin 2) * 2000 + 1 * r.val = i.val; omega
  | ⟨1, _⟩ => show win0_0.index t (1 : Fin 2) * 512 + 1 * k.val = k.val; omega

/-- The weight block at every point is the whole weight array. -/
theorem w_blk_at (c : Dev nD) (t : Fin cfg0.N) (k : Fin 512) (q : Fin 256) :
    (iblk0 (F := Ideal) V c 1 t : Vec Ideal S512x256 .f32) (ix2 k q) = wA V c (ix2 k q) := by
  obtain ⟨-, -, e10, e11, -⟩ := blk_idx t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- Entry `(r, 0)` of the coefficient block at point `t` is entry `(2000 t + r, 0)` of the coefficient column. -/
theorem s_blk_at (c : Dev nD) (t : Fin cfg0.N) (r : Fin 2000) (i : Fin 50000)
    (hi : i.val = t.val * 2000 + r.val) :
    (iblk0 (F := Ideal) V c 2 t : Vec Ideal S2000x1 .f32) (ix2 r 0) = sA V c (ix2 i 0) := by
  obtain ⟨-, -, -, -, e20, e21, -⟩ := blk_idx t
  show V c main_v28 (((cfg0.win 2).blk t).view.emb (ix2 r 0)) = V c main_v28 (ix2 i 0)
  refine congrArg (V c main_v28) ?_
  funext a; apply Fin.ext
  match a with
  | ⟨0, _⟩ => show win0_2.index t (0 : Fin 2) * 2000 + 1 * r.val = i.val; omega
  | ⟨1, _⟩ => show win0_2.index t (1 : Fin 2) * 1 + 1 * 0 = 0; omega

/-- The bias block at every point is the whole bias row. -/
theorem b_blk_at (c : Dev nD) (t : Fin cfg0.N) (q : Fin 256) :
    (iblk0 (F := Ideal) V c 3 t : Vec Ideal S1x256 .f32) (ix2 0 q) = bA V c (ix2 0 q) := by
  obtain ⟨-, -, -, -, -, -, e30, e31, -⟩ := blk_idx t
  show V c main_v29 (((cfg0.win 3).blk t).view.emb (ix2 0 q)) = V c main_v29 (ix2 0 q)
  refine congrArg (V c main_v29) ?_
  funext a; apply Fin.ext
  match a with
  | ⟨0, _⟩ => show win0_3.index t (0 : Fin 2) * 1 + 1 * 0 = 0; omega
  | ⟨1, _⟩ => show win0_3.index t (1 : Fin 2) * 256 + 1 * q.val = q.val; omega

/-! ## What each point writes back -/

/-- Point `t` writes back to the projection's array block `t` of the matrix product: entry `(r, q)` of what it wrote
    is the product's entry `(2000 t + r, q)`, which depends on row `2000 t + r` of the features and on all the weights. -/
theorem flushed_T (c : Dev nD) (t : Fin cfg0.N) :
    (dat0 (F := Ideal) V c).flushed 4 t = ((cfg0.win 4).blk t).view.read (Elt Ideal) (matT (xA V c) (wA V c)) := by
  show (cfg0.win 4).cut (grid0.coords t) ((dat0 V c).after 4 t) = _
  rw [after0_4]
  unfold out0_4
  rw [View.canon_unit_zero off_zero]
  simp only [View.ld_unit_zero (S := S2000x512) off_zero, View.ld_unit_zero (S := S512x256) off_zero]
  funext j
  show k0_pay1 (F := Ideal) (iblk0 V c 0 t) (iblk0 V c 1 t) ((win0 4).xinj (grid0.coords t) j)
    = matT (xA V c) (wA V c) (((cfg0.win 4).blk t).view.emb j)
  refine (congrArg (k0_pay1 (F := Ideal) (iblk0 V c 0 t) (iblk0 V c 1 t))
    (eq_ix2 (n0 := 2000) (n1 := 256) ((win0 4).xinj (grid0.coords t) j))).trans ?_
  refine (proj_at (iblk0 V c 0 t) (iblk0 V c 1 t) _ _).trans ?_
  show _ = ∑ k : Fin 512, xA V c (ix2 ((((cfg0.win 4).blk t).view.emb j) 0) k)
    * wA V c (ix2 k ((((cfg0.win 4).blk t).view.emb j) 1))
  obtain ⟨-, -, -, -, -, -, -, -, e40, e41, -⟩ := blk_idx t
  refine Finset.sum_congr rfl fun k _ => ?_
  refine congrArg₂ (· * ·) (x_blk_at V c t _ k _ ?_)
    ((w_blk_at V c t k _).trans (congrArg (fun q => wA V c (ix2 k q)) (Fin.ext ?_)))
  · show win0_4.index t (0 : Fin 2) * 2000 + 1 * (j 0).val = t.val * 2000 + (j 0).val; omega
  · show (j 1).val = win0_4.index t (1 : Fin 2) * 256 + 1 * (j 1).val; omega

/-- Point `t` writes back to the self term's array block `t` of the self term of the matrix product: entry `(r, q)`
    of what it wrote is the self term's entry `(2000 t + r, q)`, which depends on row `2000 t + r` of the features
    and of the coefficients, on all the weights and on the bias. -/
theorem flushed_ST (c : Dev nD) (t : Fin cfg0.N) :
    (dat0 (F := Ideal) V c).flushed 5 t
      = ((cfg0.win 5).blk t).view.read (Elt Ideal) (selfTerm (matT (xA V c) (wA V c)) (sA V c) (bA V c)) := by
  show (cfg0.win 5).cut (grid0.coords t) ((dat0 V c).after 5 t) = _
  rw [after0_5]
  unfold out0_5
  rw [View.canon_unit_zero off_zero]
  simp only [View.ld_unit_zero (S := S2000x512) off_zero, View.ld_unit_zero (S := S512x256) off_zero,
    View.ld_unit_zero (S := S2000x1) off_zero, View.ld_unit_zero (S := S1x256) off_zero]
  funext j
  show k0_pay2 (F := Ideal) (iblk0 V c 0 t) (iblk0 V c 1 t) (iblk0 V c 2 t) (iblk0 V c 3 t)
      ((win0 5).xinj (grid0.coords t) j)
    = selfTerm (matT (xA V c) (wA V c)) (sA V c) (bA V c) (((cfg0.win 5).blk t).view.emb j)
  refine (congrArg (k0_pay2 (F := Ideal) (iblk0 V c 0 t) (iblk0 V c 1 t) (iblk0 V c 2 t) (iblk0 V c 3 t))
    (eq_ix2 (n0 := 2000) (n1 := 256) ((win0 5).xinj (grid0.coords t) j))).trans ?_
  refine (self_at (iblk0 V c 0 t) (iblk0 V c 1 t) (iblk0 V c 2 t) (iblk0 V c 3 t) _ _).trans ?_
  show _ = (∑ k : Fin 512, xA V c (ix2 ((((cfg0.win 5).blk t).view.emb j) 0) k)
      * wA V c (ix2 k ((((cfg0.win 5).blk t).view.emb j) 1)))
    * sA V c (ix2 ((((cfg0.win 5).blk t).view.emb j) 0) 0) + bA V c (ix2 0 ((((cfg0.win 5).blk t).view.emb j) 1))
  obtain ⟨-, -, -, -, -, -, -, -, -, -, e50, e51⟩ := blk_idx t
  have hrow : ((((cfg0.win 5).blk t).view.emb j) 0).val = t.val * 2000 + (j 0).val := by
    show win0_5.index t (0 : Fin 2) * 2000 + 1 * (j 0).val = t.val * 2000 + (j 0).val; omega
  have hcol : (j 1).val = ((((cfg0.win 5).blk t).view.emb j) 1).val := by
    show (j 1).val = win0_5.index t (1 : Fin 2) * 256 + 1 * (j 1).val; omega
  refine congrArg₂ (· + ·) (congrArg₂ (· * ·) (Finset.sum_congr rfl fun k _ => ?_) (s_blk_at V c t _ _ hrow))
    ((b_blk_at V c t _).trans (congrArg (fun q => bA V c (ix2 0 q)) (Fin.ext hcol)))
  exact congrArg₂ (· * ·) (x_blk_at V c t _ k _ hrow)
    ((w_blk_at V c t k _).trans (congrArg (fun q => wA V c (ix2 k q)) (Fin.ext hcol)))

/-! ## The blocks tile the rows -/

/-- An index of the projection's array is in point `t`'s block iff each coordinate is in the block's range. -/
theorem mem_blk_T (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v30_0).slice (win0_4.rect t)).set ↔ _
  rw [View.set_slice_whole, Rect.mem_set_unit]
  exact Iff.rfl

/-- An index of the self term's array is in point `t`'s block iff each coordinate is in the block's range. -/
theorem mem_blk_ST (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v30_1).slice (win0_5.rect t)).set ↔ _
  rw [View.set_slice_whole, Rect.mem_set_unit]
  exact Iff.rfl

/-- Row `i` of the projection's array is in the block of the point whose row block is `i / 2000`. -/
theorem cover_T (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := blk_onto_T ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk_T]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 256 ≤ (i 1).val ∧ (i 1).val < win0_4.index t (1 : Fin 2) * 256 + 256
    omega

/-- Row `i` of the self term's array is in the block of the point whose row block is `i / 2000`. -/
theorem cover_ST (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := blk_onto_ST ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk_ST]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-! ## The two arrays after the region -/

/-- After the region the projection's array is the matrix product of the features and the weights. -/
theorem final_T (c : Dev nD) :
    ((dat0 (F := Ideal) V c).arrAt 4 cfg0.N : Mat 50000 256) = matT (xA V c) (wA V c) :=
  (dat0 (F := Ideal) V c).arrAt_eq_of_cover 4 (matT (xA V c) (wA V c)) (fun t _ => flushed_T V c t) cover_T

/-- After the region the self term's array is the self term of that product. -/
theorem final_ST (c : Dev nD) :
    ((dat0 (F := Ideal) V c).arrAt 5 cfg0.N : Mat 50000 256) = selfTerm (matT (xA V c) (wA V c)) (sA V c) (bA V c) :=
  (dat0 (F := Ideal) V c).arrAt_eq_of_cover 5 (selfTerm (matT (xA V c) (wA V c)) (sA V c) (bA V c))
    (fun t _ => flushed_ST V c t) cover_ST

end Cert.Gcn.Region0

end
-- ==== Proof.Region1.lean ====
/-
  The first layer's combining region, read as a whole array: each of the grid's 25 points adds 2000 rows of
  the aggregate to the same rows of the self term and clamps at zero. The row blocks tile the 50000 rows, so
  after the region the output array is the clamped sum at every index.
-/
import proofs.«430112_j89627377533231_1_alg».proof.Proof.Gen.KernelIdeal.Frame
import proofs.«430112_j89627377533231_1_alg».proof.Proof.Spec
import proofs.«430112_j89627377533231_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.Gcn.Region1

open Cert.KernelIdeal Cert.KernelIdeal.Gen Cert.Gcn

variable (V : (c : Dev nD) → (b : Ref sig .tc) → Buf (Elt Ideal) ((c : Thread nD τ).loc b))

/-- The region's two input arrays as the region finds them, each at its literal type. -/
abbrev aA (c : Dev nD) : Mat 50000 256 := V c main_v37
abbrev stA (c : Dev nD) : Mat 50000 256 := V c main_v30_1

/-! ## The body's arithmetic at one entry of a 2000 x 256 block -/

/-- A block's origin, the literal pair of zeros, is the zero function on the two axes. -/
theorem origin_zero1 : (![0, 0] : Fin 2 → Nat) = fun _ => 0 := funext fun a => by fin_cases a <;> rfl

/-- THE SUM STEP. The two loaded blocks, each recast to its own shape (no change), added: at row `r` and
    column `q` this is the sum of the two blocks' entries there. -/
theorem sum_at1 (x0 : Vec Ideal S2000x256 .f32) (x1 : Vec Ideal S2000x256 .f32) (r : Fin 2000) (q : Fin 256) :
    addf (F := Ideal) (φ := .f32) (shapeCast S2000x256 x0 shapeCasts_S2000x256_S2000x256)
        (shapeCast S2000x256 x1 shapeCasts_S2000x256_S2000x256) (ix2 r q)
      = (x0 (ix2 r q) : EReal) + (x1 (ix2 r q) : EReal) := by
  rw [shapeCast_self, shapeCast_self, addf_apply]

/-- THE CLAMP STEP (only the first layer has it). The maximum of a block against the splat of the zero word:
    at row `r` and column `q` this is the larger of the block's entry and the real number zero. -/
theorem clamp_at1 (v : FVec Ideal S2000x256 .f32) (r : Fin 2000) (q : Fin 256) :
    maximumf (F := Ideal) (φ := .f32) v (broadcast S2000x256 (Scalar.ofBits (F := Ideal) .f32 0x00000000#32)) (ix2 r q)
      = max (v (ix2 r q) : EReal) 0 := by
  rw [maximumf_apply, broadcast_apply]
  show max (v (ix2 r q)) (Ideal.ofBits .f32 0x00000000#32) = _
  rw [Ideal.ofBits_zero_f32]

/-- The stored block at row `r` and column `q`: the sum of the two loaded entries, clamped at zero. -/
theorem payload_at1 (x0 : Vec Ideal S2000x256 .f32) (x1 : Vec Ideal S2000x256 .f32) (r : Fin 2000) (q : Fin 256) :
    k1_pay1 (F := Ideal) x0 x1 (ix2 r q) = max ((x0 (ix2 r q) : EReal) + (x1 (ix2 r q) : EReal)) 0 := by
  unfold k1_pay1
  rw [clamp_at1, sum_at1]

/-! ## The grid: which rows each point's blocks hold -/

/-- The index maps over the 25 points: both inputs' blocks sit where the output's block sits, on both axes; the
    output's row-block index is at most 24 and its column-block index is 0. -/
theorem index_facts1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 24
    ∧ win1_2.index t (1 : Fin 2) = 0 :=
  (by decide +kernel : ∀ t : Fin grid1.N, _)

/-- Every row-block index from 0 to 24 is the output block index of some point. -/
theorem index_onto1 : ∀ q0 : Fin 25, ∃ t : Fin cfg1.N, win1_2.index t = ![q0.val, 0] :=
  (by decide +kernel : ∀ q0 : Fin 25, ∃ t : Fin grid1.N, win1_2.index t = ![q0.val, 0])

/-- An index of the 50000 x 256 output is in point `t`'s block iff each coordinate lies in the block's range on
    its axis: 2000 rows from the block index times 2000, and all 256 columns. -/
theorem mem_block1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v38).slice (win1_2.rect t)).set ↔ _
  rw [View.set_slice_whole, Rect.mem_set_unit]
  exact Iff.rfl

/-- WHAT POINT `t` WRITES BACK is block `t` of the clamped sum of the two arrays as the region finds them. -/
theorem flushed1 (c : Dev nD) (t : Fin cfg1.N) :
    (dat1 (F := Ideal) V c).flushed 2 t
      = ((cfg1.win 2).blk t).view.read (Elt Ideal) (combineRelu (aA V c) (stA V c)) := by
  show (cfg1.win 2).cut (grid1.coords t) ((dat1 V c).after 2 t) = _
  rw [after1_2]
  unfold out1_2
  rw [View.canon_unit_zero origin_zero1]
  simp only [View.ld_unit_zero (S := S2000x256) origin_zero1]
  obtain ⟨e0, e1, e2, e3, e4, e5⟩ := index_facts1 t
  funext j
  obtain ⟨r, q, rfl⟩ : ∃ (r : Fin 2000) (q : Fin 256), j = ix2 r q := ⟨j 0, j 1, eq_ix2 j⟩
  show k1_pay1 (F := Ideal) (iblk1 V c 0 t) (iblk1 V c 1 t) (ix2 r q)
      = combineRelu (aA V c) (stA V c) (((cfg1.win 2).blk t).view.emb (ix2 r q))
  refine (payload_at1 (iblk1 V c 0 t) (iblk1 V c 1 t) r q).trans ?_
  show max (aA V c (((cfg1.win 0).blk t).view.emb (ix2 r q)) + stA V c (((cfg1.win 1).blk t).view.emb (ix2 r q))) 0
      = max (aA V c (((cfg1.win 2).blk t).view.emb (ix2 r q)) + stA V c (((cfg1.win 2).blk t).view.emb (ix2 r q))) 0
  have h0 : ((cfg1.win 0).blk t).view.emb (ix2 r q) = ((cfg1.win 2).blk t).view.emb (ix2 r q) := by
    funext a; apply Fin.ext
    match a with
    | ⟨0, _⟩ => show win1_0.index t (0 : Fin 2) * 2000 + 1 * r.val = win1_2.index t (0 : Fin 2) * 2000 + 1 * r.val; omega
    | ⟨1, _⟩ => show win1_0.index t (1 : Fin 2) * 256 + 1 * q.val = win1_2.index t (1 : Fin 2) * 256 + 1 * q.val; omega
  have h1 : ((cfg1.win 1).blk t).view.emb (ix2 r q) = ((cfg1.win 2).blk t).view.emb (ix2 r q) := by
    funext a; apply Fin.ext
    match a with
    | ⟨0, _⟩ => show win1_1.index t (0 : Fin 2) * 2000 + 1 * r.val = win1_2.index t (0 : Fin 2) * 2000 + 1 * r.val; omega
    | ⟨1, _⟩ => show win1_1.index t (1 : Fin 2) * 256 + 1 * q.val = win1_2.index t (1 : Fin 2) * 256 + 1 * q.val; omega
  rw [h0, h1]

/-- THE COVER. Row `i 0` lies in the block of the point whose row-block index is `i 0 / 2000`; every column lies
    in every block. So each index of the output is in some writing point's block. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := index_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- After the region the output array is the aggregate plus the self term, clamped at zero. -/
theorem final (c : Dev nD) :
    ((dat1 (F := Ideal) V c).arrAt 2 cfg1.N : Mat 50000 256) = combineRelu (aA V c) (stA V c) :=
  (dat1 (F := Ideal) V c).arrAt_eq_of_cover 2 (combineRelu (aA V c) (stA V c)) (fun t _ => flushed1 V c t) cover1

end Cert.Gcn.Region1

end
-- ==== Proof.Region2.lean ====
/-
  The second layer's first head, read as whole arrays: the grid's 25 points each take 2000 rows of the hidden
  features [50000, 256], multiply them by the head's whole weight matrix [256, 128], and write back 2000 rows of
  the head's projection and 2000 rows of its self term. The row blocks tile the 50000 rows, so after the region
  the first output array is the matrix product and the second is the self term of it, at every index.
-/
import proofs.«430112_j89627377533231_1_alg».proof.Proof.Gen.KernelIdeal.Frame
import proofs.«430112_j89627377533231_1_alg».proof.Proof.Spec
import proofs.«430112_j89627377533231_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.Gcn.Region2

open Cert.KernelIdeal Cert.KernelIdeal.Gen Cert.Gcn

variable (V : (c : Dev nD) → (b : Ref sig .tc) → Buf (Elt Ideal) ((c : Thread nD τ).loc b))

/-- The region's four input arrays as the region finds them, each at its literal type. -/
abbrev xA (c : Dev nD) : Mat 50000 256 := V c main_v38
abbrev wA (c : Dev nD) : Mat 256 128 := V c main_arg4
abbrev sA (c : Dev nD) : Mat 50000 1 := V c main_v39
abbrev bA (c : Dev nD) : Mat 1 128 := V c main_v40

/-! ## The head's arithmetic at one entry of a block -/

/-- A whole-buffer access starts at offset zero on both axes. -/
theorem start_zero : (![0, 0] : Fin 2 → Nat) = fun _ => 0 := funext fun a => by fin_cases a <;> rfl

/-- The head's projection of a block at entry `(r, q)`: row `r` of the 2000 hidden rows against column `q` of the
    head's weights. Recasting the hidden block to its own shape and narrowing both operands change nothing on the
    extended reals, and the accumulator starts at zero. -/
theorem head_at (x0 : Vec Ideal S2000x256 .f32) (x1 : Vec Ideal S256x128 .f32) (r : Fin 2000) (q : Fin 128) :
    k2_pay1 (F := Ideal) x0 x1 (ix2 r q) = ∑ k : Fin 256, x0 (ix2 r k) * x1 (ix2 k q) := by
  unfold k2_pay1
  refine (Cert.PlainDot.matmul_zero_apply (M := 2000) (K := 256) (N := 128) dot_S2000x256_S256x128_S2000x128_1_0_0_1_n_n rfl none
    (truncf (F := Ideal) .bf16 (shapeCast S2000x256 x0 shapeCasts_S2000x256_S2000x256) bitsLt_bf16_f32)
    (truncf (F := Ideal) .bf16 x1 bitsLt_bf16_f32) (ix2 r q)).trans ?_
  rw [shapeCast_self]
  rfl

/-- The head's self term of a block at entry `(r, q)`: the head's projection there, times the coefficient of row `r`
    (a column spread along the row), plus the head's bias of column `q` (a row spread down the column). -/
theorem head_self_at (x0 : Vec Ideal S2000x256 .f32) (x1 : Vec Ideal S256x128 .f32) (x2 : Vec Ideal S2000x1 .f32)
    (x3 : Vec Ideal S1x128 .f32) (r : Fin 2000) (q : Fin 128) :
    k2_pay2 (F := Ideal) x0 x1 x2 x3 (ix2 r q)
      = (∑ k : Fin 256, x0 (ix2 r k) * x1 (ix2 k q)) * x2 (ix2 r 0) + x3 (ix2 0 q) := by
  unfold k2_pay2
  show addf (F := Ideal)
      (mulf (F := Ideal) (k2_pay1 (F := Ideal) x0 x1)
        (broadcastTo S2000x128 (shapeCast S2000x1 x2 shapeCasts_S2000x1_S2000x1) broadcasts_S2000x1_S2000x128))
      (broadcastTo S2000x128 (shapeCast S1x128 x3 shapeCasts_S1x128_S1x128) broadcasts_S1x128_S2000x128) (ix2 r q) = _
  rw [addf_apply, mulf_apply, head_at, shapeCast_self, shapeCast_self]
  rw [broadcastTo_apply x2 broadcasts_S2000x1_S2000x128 (ix2 r q) (ix2 r 0) (by
        intro a
        match a with
        | ⟨0, _⟩ => rfl
        | ⟨1, _⟩ => rfl),
      broadcastTo_apply x3 broadcasts_S1x128_S2000x128 (ix2 r q) (ix2 0 q) (by
        intro a
        match a with
        | ⟨0, _⟩ => rfl
        | ⟨1, _⟩ => rfl)]

/-! ## Where each window's block sits -/

/-- The block indices over the grid's 25 points: the four row-blocked windows (hidden features, coefficients and the
    head's two outputs) sit at row block `t` and column block 0; the two whole-array windows (the head's weights and
    bias) at block `(0, 0)`. -/
theorem blk_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Every row block 0..24 of the head's projection array is some point's. -/
theorem blk_onto_T : ∀ q0 : Fin 25, ∃ t : Fin cfg2.N, win2_4.index t = ![q0.val, 0] :=
  (by decide +kernel : ∀ q0 : Fin 25, ∃ t : Fin grid2.N, win2_4.index t = ![q0.val, 0])

/-- Every row block 0..24 of the head's self-term array is some point's. -/
theorem blk_onto_ST : ∀ q0 : Fin 25, ∃ t : Fin cfg2.N, win2_5.index t = ![q0.val, 0] :=
  (by decide +kernel : ∀ q0 : Fin 25, ∃ t : Fin grid2.N, win2_5.index t = ![q0.val, 0])

/-- Entry `(r, k)` of the hidden block at point `t` is entry `(2000 t + r, k)` of the hidden array. -/
theorem h_blk_at (c : Dev nD) (t : Fin cfg2.N) (r : Fin 2000) (k : Fin 256) (i : Fin 50000)
    (hi : i.val = t.val * 2000 + r.val) :
    (iblk2 (F := Ideal) V c 0 t : Vec Ideal S2000x256 .f32) (ix2 r k) = xA V c (ix2 i k) := by
  obtain ⟨e00, e01, -⟩ := blk_idx t
  show V c main_v38 (((cfg2.win 0).blk t).view.emb (ix2 r k)) = V c main_v38 (ix2 i k)
  refine congrArg (V c main_v38) ?_
  funext a; apply Fin.ext
  match a with
  | ⟨0, _⟩ => show win2_0.index t (0 : Fin 2) * 2000 + 1 * r.val = i.val; omega
  | ⟨1, _⟩ => show win2_0.index t (1 : Fin 2) * 256 + 1 * k.val = k.val; omega

/-- The head's weight block at every point is its whole weight array. -/
theorem w_blk_at (c : Dev nD) (t : Fin cfg2.N) (k : Fin 256) (q : Fin 128) :
    (iblk2 (F := Ideal) V c 1 t : Vec Ideal S256x128 .f32) (ix2 k q) = wA V c (ix2 k q) := by
  obtain ⟨-, -, e10, e11, -⟩ := blk_idx t
  show V c main_arg4 (((cfg2.win 1).blk t).view.emb (ix2 k q)) = V c main_arg4 (ix2 k q)
  refine congrArg (V c main_arg4) ?_
  funext a; apply Fin.ext
  match a with
  | ⟨0, _⟩ => show win2_1.index t (0 : Fin 2) * 256 + 1 * k.val = k.val; omega
  | ⟨1, _⟩ => show win2_1.index t (1 : Fin 2) * 128 + 1 * q.val = q.val; omega

/-- Entry `(r, 0)` of the coefficient block at point `t` is entry `(2000 t + r, 0)` of the coefficient column. -/
theorem s_blk_at (c : Dev nD) (t : Fin cfg2.N) (r : Fin 2000) (i : Fin 50000)
    (hi : i.val = t.val * 2000 + r.val) :
    (iblk2 (F := Ideal) V c 2 t : Vec Ideal S2000x1 .f32) (ix2 r 0) = sA V c (ix2 i 0) := by
  obtain ⟨-, -, -, -, e20, e21, -⟩ := blk_idx t
  show V c main_v39 (((cfg2.win 2).blk t).view.emb (ix2 r 0)) = V c main_v39 (ix2 i 0)
  refine congrArg (V c main_v39) ?_
  funext a; apply Fin.ext
  match a with
  | ⟨0, _⟩ => show win2_2.index t (0 : Fin 2) * 2000 + 1 * r.val = i.val; omega
  | ⟨1, _⟩ => show win2_2.index t (1 : Fin 2) * 1 + 1 * 0 = 0; omega

/-- The head's bias block at every point is its whole bias row. -/
theorem b_blk_at (c : Dev nD) (t : Fin cfg2.N) (q : Fin 128) :
    (iblk2 (F := Ideal) V c 3 t : Vec Ideal S1x128 .f32) (ix2 0 q) = bA V c (ix2 0 q) := by
  obtain ⟨-, -, -, -, -, -, e30, e31, -⟩ := blk_idx t
  show V c main_v40 (((cfg2.win 3).blk t).view.emb (ix2 0 q)) = V c main_v40 (ix2 0 q)
  refine congrArg (V c main_v40) ?_
  funext a; apply Fin.ext
  match a with
  | ⟨0, _⟩ => show win2_3.index t (0 : Fin 2) * 1 + 1 * 0 = 0; omega
  | ⟨1, _⟩ => show win2_3.index t (1 : Fin 2) * 128 + 1 * q.val = q.val; omega

/-! ## What each point writes back -/

/-- Point `t` writes back to the head's projection array block `t` of the matrix product: entry `(r, q)` of what it
    wrote is the product's entry `(2000 t + r, q)`, which depends on row `2000 t + r` of the hidden features and on
    all the head's weights. -/
theorem flushed_T (c : Dev nD) (t : Fin cfg2.N) :
    (dat2 (F := Ideal) V c).flushed 4 t = ((cfg2.win 4).blk t).view.read (Elt Ideal) (matT (xA V c) (wA V c)) := by
  show (cfg2.win 4).cut (grid2.coords t) ((dat2 V c).after 4 t) = _
  rw [after2_4]
  unfold out2_4
  rw [View.canon_unit_zero start_zero]
  simp only [View.ld_unit_zero (S := S2000x256) start_zero, View.ld_unit_zero (S := S256x128) start_zero]
  funext j
  show k2_pay1 (F := Ideal) (iblk2 V c 0 t) (iblk2 V c 1 t) ((win2 4).xinj (grid2.coords t) j)
    = matT (xA V c) (wA V c) (((cfg2.win 4).blk t).view.emb j)
  refine (congrArg (k2_pay1 (F := Ideal) (iblk2 V c 0 t) (iblk2 V c 1 t))
    (eq_ix2 (n0 := 2000) (n1 := 128) ((win2 4).xinj (grid2.coords t) j))).trans ?_
  refine (head_at (iblk2 V c 0 t) (iblk2 V c 1 t) _ _).trans ?_
  show _ = ∑ k : Fin 256, xA V c (ix2 ((((cfg2.win 4).blk t).view.emb j) 0) k)
    * wA V c (ix2 k ((((cfg2.win 4).blk t).view.emb j) 1))
  obtain ⟨-, -, -, -, -, -, -, -, e40, e41, -⟩ := blk_idx t
  refine Finset.sum_congr rfl fun k _ => ?_
  refine congrArg₂ (· * ·) (h_blk_at V c t _ k _ ?_)
    ((w_blk_at V c t k _).trans (congrArg (fun q => wA V c (ix2 k q)) (Fin.ext ?_)))
  · show win2_4.index t (0 : Fin 2) * 2000 + 1 * (j 0).val = t.val * 2000 + (j 0).val; omega
  · show (j 1).val = win2_4.index t (1 : Fin 2) * 128 + 1 * (j 1).val; omega

/-- Point `t` writes back to the head's self-term array block `t` of the self term of the matrix product: entry
    `(r, q)` of what it wrote is the self term's entry `(2000 t + r, q)`, which depends on row `2000 t + r` of the
    hidden features and of the coefficients, on all the head's weights and on its bias. -/
theorem flushed_ST (c : Dev nD) (t : Fin cfg2.N) :
    (dat2 (F := Ideal) V c).flushed 5 t
      = ((cfg2.win 5).blk t).view.read (Elt Ideal) (selfTerm (matT (xA V c) (wA V c)) (sA V c) (bA V c)) := by
  show (cfg2.win 5).cut (grid2.coords t) ((dat2 V c).after 5 t) = _
  rw [after2_5]
  unfold out2_5
  rw [View.canon_unit_zero start_zero]
  simp only [View.ld_unit_zero (S := S2000x256) start_zero, View.ld_unit_zero (S := S256x128) start_zero,
    View.ld_unit_zero (S := S2000x1) start_zero, View.ld_unit_zero (S := S1x128) start_zero]
  funext j
  show k2_pay2 (F := Ideal) (iblk2 V c 0 t) (iblk2 V c 1 t) (iblk2 V c 2 t) (iblk2 V c 3 t)
      ((win2 5).xinj (grid2.coords t) j)
    = selfTerm (matT (xA V c) (wA V c)) (sA V c) (bA V c) (((cfg2.win 5).blk t).view.emb j)
  refine (congrArg (k2_pay2 (F := Ideal) (iblk2 V c 0 t) (iblk2 V c 1 t) (iblk2 V c 2 t) (iblk2 V c 3 t))
    (eq_ix2 (n0 := 2000) (n1 := 128) ((win2 5).xinj (grid2.coords t) j))).trans ?_
  refine (head_self_at (iblk2 V c 0 t) (iblk2 V c 1 t) (iblk2 V c 2 t) (iblk2 V c 3 t) _ _).trans ?_
  show _ = (∑ k : Fin 256, xA V c (ix2 ((((cfg2.win 5).blk t).view.emb j) 0) k)
      * wA V c (ix2 k ((((cfg2.win 5).blk t).view.emb j) 1)))
    * sA V c (ix2 ((((cfg2.win 5).blk t).view.emb j) 0) 0) + bA V c (ix2 0 ((((cfg2.win 5).blk t).view.emb j) 1))
  obtain ⟨-, -, -, -, -, -, -, -, -, -, e50, e51⟩ := blk_idx t
  have hrow : ((((cfg2.win 5).blk t).view.emb j) 0).val = t.val * 2000 + (j 0).val := by
    show win2_5.index t (0 : Fin 2) * 2000 + 1 * (j 0).val = t.val * 2000 + (j 0).val; omega
  have hcol : (j 1).val = ((((cfg2.win 5).blk t).view.emb j) 1).val := by
    show (j 1).val = win2_5.index t (1 : Fin 2) * 128 + 1 * (j 1).val; omega
  refine congrArg₂ (· + ·) (congrArg₂ (· * ·) (Finset.sum_congr rfl fun k _ => ?_) (s_blk_at V c t _ _ hrow))
    ((b_blk_at V c t _).trans (congrArg (fun q => bA V c (ix2 0 q)) (Fin.ext hcol)))
  exact congrArg₂ (· * ·) (h_blk_at V c t _ k _ hrow)
    ((w_blk_at V c t k _).trans (congrArg (fun q => wA V c (ix2 k q)) (Fin.ext hcol)))

/-! ## The blocks tile the rows -/

/-- An index of the head's projection array is in point `t`'s block iff each coordinate is in the block's range. -/
theorem mem_blk_T (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v41_0).slice (win2_4.rect t)).set ↔ _
  rw [View.set_slice_whole, Rect.mem_set_unit]
  exact Iff.rfl

/-- An index of the head's self-term array is in point `t`'s block iff each coordinate is in the block's range. -/
theorem mem_blk_ST (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v41_1).slice (win2_5.rect t)).set ↔ _
  rw [View.set_slice_whole, Rect.mem_set_unit]
  exact Iff.rfl

/-- Row `i` of the head's projection array is in the block of the point whose row block is `i / 2000`. -/
theorem cover_T (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := blk_onto_T ⟨(i 0).val / 2000, by omega⟩
  have q0 : win2_4.index t (0 : Fin 2) = (i 0).val / 2000 := congrFun ht 0
  have q1 : win2_4.index t (1 : Fin 2) = 0 := congrFun ht 1
  refine ⟨t, flush2_4 t, ?_⟩
  rw [mem_blk_T]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 128 ≤ (i 1).val ∧ (i 1).val < win2_4.index t (1 : Fin 2) * 128 + 128
    omega

/-- Row `i` of the head's self-term array is in the block of the point whose row block is `i / 2000`. -/
theorem cover_ST (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := blk_onto_ST ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk_ST]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 128 ≤ (i 1).val ∧ (i 1).val < win2_5.index t (1 : Fin 2) * 128 + 128
    omega

/-! ## The two arrays after the region -/

/-- After the region the projection's array is the matrix product of the features and the weights. -/
theorem final_T (c : Dev nD) :
    ((dat2 (F := Ideal) V c).arrAt 4 cfg2.N : Mat 50000 128) = matT (xA V c) (wA V c) :=
  (dat2 (F := Ideal) V c).arrAt_eq_of_cover 4 (matT (xA V c) (wA V c)) (fun t _ => flushed_T V c t) cover_T

/-- After the region the self term's array is the self term of that product. -/
theorem final_ST (c : Dev nD) :
    ((dat2 (F := Ideal) V c).arrAt 5 cfg2.N : Mat 50000 128) = selfTerm (matT (xA V c) (wA V c)) (sA V c) (bA V c) :=
  (dat2 (F := Ideal) V c).arrAt_eq_of_cover 5 (selfTerm (matT (xA V c) (wA V c)) (sA V c) (bA V c))
    (fun t _ => flushed_ST V c t) cover_ST

end Cert.Gcn.Region2

end
-- ==== Proof.KernelFoldA.lean ====
/-
  The kernel program's buffers half way through @main, as functions of its arguments.

  After the first layer (its projection region, the host stretch that aggregates, its combining region), the
  reshapes for the first head, and the first head's projection region, the live buffers hold: the hidden
  features, the first head's projection and self term, the four graph arrays (sources, destinations, edge
  coefficients, self-loop coefficients), and the second head's weights and bias still as launched. Each is read
  back through the fold of segment boundaries to the functions of `KernelValue.lean`.
-/
import proofs.«430112_j89627377533231_1_alg».proof.Proof.Gen.KernelIdeal.Frame
import proofs.«430112_j89627377533231_1_alg».proof.Proof.KernelValue
import proofs.«430112_j89627377533231_1_alg».proof.Proof.Region0
import proofs.«430112_j89627377533231_1_alg».proof.Proof.Region1
import proofs.«430112_j89627377533231_1_alg».proof.Proof.Region2
import Idealize.ShloMosaic.Lib.StableHlo.Run

set_option maxRecDepth 16384

noncomputable section

namespace Cert.Gcn.Fold

open Cert.KernelIdeal Cert.KernelIdeal.Facts₀ Cert.KernelIdeal.Facts Cert.KernelIdeal.Gen Cert.Gcn
open Idealize.ShloMosaic Idealize.ShloMosaic.TcCoe Idealize.ShloMosaic.ValueIdx Idealize.ShloMosaic.StableHlo Idealize.SL.Sem

/-! ## The host stretches, at any contents `W` of the buffers

  What a host stretch leaves in a buffer it computes, as a function of what the buffers it reads held before
  it; and that it leaves alone every buffer it does not write. -/

section Host

variable (W : Valuation τ sig (Elt Ideal))

/-- A buffer none of the stretch's operations writes is left as it was. -/
local macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ### The first stretch: the graph arrays and the first layer's column and row -/

set_option maxHeartbeats 8000000 in
theorem host0_src : (StableHlo.after (hostOps0 (F := Ideal)) W (Proc.devRef .tc main_v1) : EdgeWords)
    = srcOf (W (Proc.devRef .tc main_arg1)) := by
  after_results_simp
  rfl
set_option maxHeartbeats 8000000 in
theorem host0_dst : (StableHlo.after (hostOps0 (F := Ideal)) W (Proc.devRef .tc main_v3) : EdgeWords)
    = dstOf (W (Proc.devRef .tc main_arg1)) := by
  after_results_simp
  rfl
set_option maxHeartbeats 8000000 in
theorem host0_coef : (StableHlo.after (hostOps0 (F := Ideal)) W (Proc.devRef .tc main_v25) : EdgeReals)
    = edgeCoef (W (Proc.devRef .tc main_arg1)) := by
  after_results_simp
  rfl
set_option maxHeartbeats 8000000 in
theorem host0_selfCoef : (StableHlo.after (hostOps0 (F := Ideal)) W (Proc.devRef .tc main_v27) : FVec Ideal S50000 .f32)
    = selfCoef (W (Proc.devRef .tc main_arg1)) := by
  after_results_simp
  rfl
set_option maxHeartbeats 8000000 in
theorem host0_selfCol : (StableHlo.after (hostOps0 (F := Ideal)) W (Proc.devRef .tc main_v28) : Mat 50000 1)
    = selfCol (W (Proc.devRef .tc main_arg1)) := by
  after_results_simp
  rfl
set_option maxHeartbeats 8000000 in
theorem host0_biasRow : (StableHlo.after (hostOps0 (F := Ideal)) W (Proc.devRef .tc main_v29) : Mat 1 256)
    = biasRow256 (W (Proc.devRef .tc main_arg3)) := by
  after_results_simp
  rfl
theorem host0_arg0 : StableHlo.after (hostOps0 (F := Ideal)) W (Proc.devRef .tc main_arg0) = W (Proc.devRef .tc main_arg0) := by
  host_keeps hostOps0
theorem host0_arg2 : StableHlo.after (hostOps0 (F := Ideal)) W (Proc.devRef .tc main_arg2) = W (Proc.devRef .tc main_arg2) := by
  host_keeps hostOps0
theorem host0_arg4 : StableHlo.after (hostOps0 (F := Ideal)) W (Proc.devRef .tc main_arg4) = W (Proc.devRef .tc main_arg4) := by
  host_keeps hostOps0
theorem host0_arg5 : StableHlo.after (hostOps0 (F := Ideal)) W (Proc.devRef .tc main_arg5) = W (Proc.devRef .tc main_arg5) := by
  host_keeps hostOps0
theorem host0_arg6 : StableHlo.after (hostOps0 (F := Ideal)) W (Proc.devRef .tc main_arg6) = W (Proc.devRef .tc main_arg6) := by
  host_keeps hostOps0
theorem host0_arg7 : StableHlo.after (hostOps0 (F := Ideal)) W (Proc.devRef .tc main_arg7) = W (Proc.devRef .tc main_arg7) := by
  host_keeps hostOps0

/-! ### The aggregating stretch of the first layer: the guarded lookup, then the scaled scatter-add -/

set_option maxHeartbeats 8000000 in
theorem host1_agg : (StableHlo.after (hostOps1_1 (F := Ideal)) (StableHlo.after (hostOps1 (F := Ideal)) W) (Proc.devRef .tc main_v37) : Mat 50000 256)
    = aggOf256 (takeRows256 (W (Proc.devRef .tc main_v1)) (W (Proc.devRef .tc main_v30_0))) (W (Proc.devRef .tc main_v3)) (W (Proc.devRef .tc main_v25)) := by
  after_results_simp
  simp only [StableHlo.TRef.toBuf, StableHlo.TRef.ofBuf, cast_eq]
  rfl

/-- Both halves of the aggregating stretch leave a buffer alone. -/
local macro "host1_keeps" : tactic => `(tactic|
  exact (StableHlo.after_of_forall_not_mem _ _ (List.forall_iff_forall_mem.mp (by
    simp only [hostOps1_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))).trans
   (StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))))

theorem host1_selfTerm : StableHlo.after (hostOps1_1 (F := Ideal)) (StableHlo.after (hostOps1 (F := Ideal)) W) (Proc.devRef .tc main_v30_1) = W (Proc.devRef .tc main_v30_1) := by
  host1_keeps
theorem host1_v1 : StableHlo.after (hostOps1_1 (F := Ideal)) (StableHlo.after (hostOps1 (F := Ideal)) W) (Proc.devRef .tc main_v1) = W (Proc.devRef .tc main_v1) := by
  host1_keeps
theorem host1_v3 : StableHlo.after (hostOps1_1 (F := Ideal)) (StableHlo.after (hostOps1 (F := Ideal)) W) (Proc.devRef .tc main_v3) = W (Proc.devRef .tc main_v3) := by
  host1_keeps
theorem host1_v25 : StableHlo.after (hostOps1_1 (F := Ideal)) (StableHlo.after (hostOps1 (F := Ideal)) W) (Proc.devRef .tc main_v25) = W (Proc.devRef .tc main_v25) := by
  host1_keeps
theorem host1_v27 : StableHlo.after (hostOps1_1 (F := Ideal)) (StableHlo.after (hostOps1 (F := Ideal)) W) (Proc.devRef .tc main_v27) = W (Proc.devRef .tc main_v27) := by
  host1_keeps
theorem host1_arg4 : StableHlo.after (hostOps1_1 (F := Ideal)) (StableHlo.after (hostOps1 (F := Ideal)) W) (Proc.devRef .tc main_arg4) = W (Proc.devRef .tc main_arg4) := by
  host1_keeps
theorem host1_arg5 : StableHlo.after (hostOps1_1 (F := Ideal)) (StableHlo.after (hostOps1 (F := Ideal)) W) (Proc.devRef .tc main_arg5) = W (Proc.devRef .tc main_arg5) := by
  host1_keeps
theorem host1_arg6 : StableHlo.after (hostOps1_1 (F := Ideal)) (StableHlo.after (hostOps1 (F := Ideal)) W) (Proc.devRef .tc main_arg6) = W (Proc.devRef .tc main_arg6) := by
  host1_keeps
theorem host1_arg7 : StableHlo.after (hostOps1_1 (F := Ideal)) (StableHlo.after (hostOps1 (F := Ideal)) W) (Proc.devRef .tc main_arg7) = W (Proc.devRef .tc main_arg7) := by
  host1_keeps

/-! ### The reshapes before the first head's projection region -/

theorem host2_selfCol : (StableHlo.after (hostOps2 (F := Ideal)) W (Proc.devRef .tc main_v39) : Mat 50000 1)
    = shapeCast S50000x1 (W (Proc.devRef .tc main_v27) : FVec Ideal S50000 .f32) Facts₀.shapeCasts_S50000_S50000x1 := by
  after_results
  rfl
theorem host2_biasRow : (StableHlo.after (hostOps2 (F := Ideal)) W (Proc.devRef .tc main_v40) : Mat 1 128)
    = biasRow128 (W (Proc.devRef .tc main_arg5)) := by
  after_results
  rfl
theorem host2_v38 : StableHlo.after (hostOps2 (F := Ideal)) W (Proc.devRef .tc main_v38) = W (Proc.devRef .tc main_v38) := by
  host_keeps hostOps2
theorem host2_arg4 : StableHlo.after (hostOps2 (F := Ideal)) W (Proc.devRef .tc main_arg4) = W (Proc.devRef .tc main_arg4) := by
  host_keeps hostOps2
theorem host2_v1 : StableHlo.after (hostOps2 (F := Ideal)) W (Proc.devRef .tc main_v1) = W (Proc.devRef .tc main_v1) := by
  host_keeps hostOps2
theorem host2_v3 : StableHlo.after (hostOps2 (F := Ideal)) W (Proc.devRef .tc main_v3) = W (Proc.devRef .tc main_v3) := by
  host_keeps hostOps2
theorem host2_v25 : StableHlo.after (hostOps2 (F := Ideal)) W (Proc.devRef .tc main_v25) = W (Proc.devRef .tc main_v25) := by
  host_keeps hostOps2
theorem host2_v27 : StableHlo.after (hostOps2 (F := Ideal)) W (Proc.devRef .tc main_v27) = W (Proc.devRef .tc main_v27) := by
  host_keeps hostOps2
theorem host2_arg6 : StableHlo.after (hostOps2 (F := Ideal)) W (Proc.devRef .tc main_arg6) = W (Proc.devRef .tc main_arg6) := by
  host_keeps hostOps2
theorem host2_arg7 : StableHlo.after (hostOps2 (F := Ideal)) W (Proc.devRef .tc main_arg7) = W (Proc.devRef .tc main_arg7) := by
  host_keeps hostOps2

end Host

variable (m : (ℓ : Loc nD τ sig) → Buf (Elt Ideal) ℓ) (ρ : Dev nD → PrngReg)

/-- The eight argument arrays as launched, each at its literal type. -/
abbrev arg0 (c : Dev nD) : Mat 50000 512 := m ((c.tc : Thread nD τ).loc main_arg0)
abbrev arg1 (c : Dev nD) : Edges := m ((c.tc : Thread nD τ).loc main_arg1)
abbrev arg2 (c : Dev nD) : Mat 512 256 := m ((c.tc : Thread nD τ).loc main_arg2)
abbrev arg3 (c : Dev nD) : FVec Ideal S256 .f32 := m ((c.tc : Thread nD τ).loc main_arg3)
abbrev arg4 (c : Dev nD) : Mat 256 128 := m ((c.tc : Thread nD τ).loc main_arg4)
abbrev arg5 (c : Dev nD) : FVec Ideal S128 .f32 := m ((c.tc : Thread nD τ).loc main_arg5)
abbrev arg6 (c : Dev nD) : Mat 256 128 := m ((c.tc : Thread nD τ).loc main_arg6)
abbrev arg7 (c : Dev nD) : FVec Ideal S128 .f32 := m ((c.tc : Thread nD τ).loc main_arg7)

/-! ## The first layer's projection region (boundaries 1 and 2)

  At its entry the features and weights are as launched, the column holds the self-loop coefficients and the
  row the bias; at its exit the two output arrays hold the projection and its self term. The graph arrays are
  not among the region's arrays and pass through. -/

theorem entry0_x (c : Dev nD) : (W1 m ρ c (Proc.devRef .tc main_arg0) : Mat 50000 512) = arg0 m c :=
  host0_arg0 (W0 m ρ c)
theorem entry0_w (c : Dev nD) : (W1 m ρ c (Proc.devRef .tc main_arg2) : Mat 512 256) = arg2 m c :=
  host0_arg2 (W0 m ρ c)
theorem entry0_s (c : Dev nD) : (W1 m ρ c (Proc.devRef .tc main_v28) : Mat 50000 1) = selfCol (arg1 m c) :=
  host0_selfCol (W0 m ρ c)
theorem entry0_b (c : Dev nD) : (W1 m ρ c (Proc.devRef .tc main_v29) : Mat 1 256) = biasRow256 (arg3 m c) :=
  host0_biasRow (W0 m ρ c)

theorem exit0_proj (c : Dev nD) :
    (W2 m ρ c (Proc.devRef .tc main_v30_0) : Mat 50000 256) = proj1 (arg0 m c) (arg2 m c) := by
  refine (W2_arr m ρ c 4).trans ((Region0.final_T (V1 m ρ) c).trans ?_)
  show matT (W1 m ρ c (Proc.devRef .tc main_arg0) : Mat 50000 512) (W1 m ρ c (Proc.devRef .tc main_arg2) : Mat 512 256) = _
  rw [entry0_x, entry0_w]
  rfl
theorem exit0_self (c : Dev nD) :
    (W2 m ρ c (Proc.devRef .tc main_v30_1) : Mat 50000 256) = self1 (arg0 m c) (arg1 m c) (arg2 m c) (arg3 m c) := by
  refine (W2_arr m ρ c 5).trans ((Region0.final_ST (V1 m ρ) c).trans ?_)
  show selfTerm (matT (W1 m ρ c (Proc.devRef .tc main_arg0) : Mat 50000 512) (W1 m ρ c (Proc.devRef .tc main_arg2) : Mat 512 256))
    (W1 m ρ c (Proc.devRef .tc main_v28) : Mat 50000 1) (W1 m ρ c (Proc.devRef .tc main_v29) : Mat 1 256) = _
  rw [entry0_x, entry0_w, entry0_s, entry0_b]
  rfl
theorem exit0_src (c : Dev nD) : (W2 m ρ c (Proc.devRef .tc main_v1) : EdgeWords) = srcOf (arg1 m c) :=
  (W2_of_ne m ρ c main_v1 (by decide)).trans (host0_src (W0 m ρ c))
theorem exit0_dst (c : Dev nD) : (W2 m ρ c (Proc.devRef .tc main_v3) : EdgeWords) = dstOf (arg1 m c) :=
  (W2_of_ne m ρ c main_v3 (by decide)).trans (host0_dst (W0 m ρ c))
theorem exit0_coef (c : Dev nD) : (W2 m ρ c (Proc.devRef .tc main_v25) : EdgeReals) = edgeCoef (arg1 m c) :=
  (W2_of_ne m ρ c main_v25 (by decide)).trans (host0_coef (W0 m ρ c))
theorem exit0_selfCoef (c : Dev nD) :
    (W2 m ρ c (Proc.devRef .tc main_v27) : FVec Ideal S50000 .f32) = selfCoef (arg1 m c) :=
  (W2_of_ne m ρ c main_v27 (by decide)).trans (host0_selfCoef (W0 m ρ c))
theorem exit0_arg4 (c : Dev nD) : (W2 m ρ c (Proc.devRef .tc main_arg4) : Mat 256 128) = arg4 m c :=
  (W2_of_ne m ρ c main_arg4 (by decide)).trans (host0_arg4 (W0 m ρ c))
theorem exit0_arg5 (c : Dev nD) : (W2 m ρ c (Proc.devRef .tc main_arg5) : FVec Ideal S128 .f32) = arg5 m c :=
  (W2_of_ne m ρ c main_arg5 (by decide)).trans (host0_arg5 (W0 m ρ c))
theorem exit0_arg6 (c : Dev nD) : (W2 m ρ c (Proc.devRef .tc main_arg6) : Mat 256 128) = arg6 m c :=
  (W2_of_ne m ρ c main_arg6 (by decide)).trans (host0_arg6 (W0 m ρ c))
theorem exit0_arg7 (c : Dev nD) : (W2 m ρ c (Proc.devRef .tc main_arg7) : FVec Ideal S128 .f32) = arg7 m c :=
  (W2_of_ne m ρ c main_arg7 (by decide)).trans (host0_arg7 (W0 m ρ c))

/-! ## The first layer's aggregate and its combining region (boundaries 4 and 5)

  The aggregating stretch reads the projection, the sources, the destinations and the edge coefficients and
  writes the aggregate; the combining region adds the self term and clamps at zero: the hidden features. -/

theorem entry1_agg (c : Dev nD) :
    (W4 m ρ c (Proc.devRef .tc main_v37) : Mat 50000 256) = agg1 (arg0 m c) (arg1 m c) (arg2 m c) := by
  refine (host1_agg (W2 m ρ c)).trans ?_
  rw [exit0_src, exit0_proj, exit0_dst, exit0_coef]
  rfl
theorem entry1_self (c : Dev nD) :
    (W4 m ρ c (Proc.devRef .tc main_v30_1) : Mat 50000 256) = self1 (arg0 m c) (arg1 m c) (arg2 m c) (arg3 m c) :=
  (host1_selfTerm (W2 m ρ c)).trans (exit0_self m ρ c)

theorem exit1_hidden (c : Dev nD) :
    (W5 m ρ c (Proc.devRef .tc main_v38) : Mat 50000 256) = hidden (arg0 m c) (arg1 m c) (arg2 m c) (arg3 m c) := by
  refine (W5_arr m ρ c 2).trans ((Region1.final (V4 m ρ) c).trans ?_)
  show combineRelu (W4 m ρ c (Proc.devRef .tc main_v37) : Mat 50000 256) (W4 m ρ c (Proc.devRef .tc main_v30_1) : Mat 50000 256) = _
  rw [entry1_agg, entry1_self]
  rfl
theorem exit1_src (c : Dev nD) : (W5 m ρ c (Proc.devRef .tc main_v1) : EdgeWords) = srcOf (arg1 m c) :=
  (W5_of_ne m ρ c main_v1 (by decide)).trans ((host1_v1 (W2 m ρ c)).trans (exit0_src m ρ c))
theorem exit1_dst (c : Dev nD) : (W5 m ρ c (Proc.devRef .tc main_v3) : EdgeWords) = dstOf (arg1 m c) :=
  (W5_of_ne m ρ c main_v3 (by decide)).trans ((host1_v3 (W2 m ρ c)).trans (exit0_dst m ρ c))
theorem exit1_coef (c : Dev nD) : (W5 m ρ c (Proc.devRef .tc main_v25) : EdgeReals) = edgeCoef (arg1 m c) :=
  (W5_of_ne m ρ c main_v25 (by decide)).trans ((host1_v25 (W2 m ρ c)).trans (exit0_coef m ρ c))
theorem exit1_selfCoef (c : Dev nD) :
    (W5 m ρ c (Proc.devRef .tc main_v27) : FVec Ideal S50000 .f32) = selfCoef (arg1 m c) :=
  (W5_of_ne m ρ c main_v27 (by decide)).trans ((host1_v27 (W2 m ρ c)).trans (exit0_selfCoef m ρ c))
theorem exit1_arg4 (c : Dev nD) : (W5 m ρ c (Proc.devRef .tc main_arg4) : Mat 256 128) = arg4 m c :=
  (W5_of_ne m ρ c main_arg4 (by decide)).trans ((host1_arg4 (W2 m ρ c)).trans (exit0_arg4 m ρ c))
theorem exit1_arg5 (c : Dev nD) : (W5 m ρ c (Proc.devRef .tc main_arg5) : FVec Ideal S128 .f32) = arg5 m c :=
  (W5_of_ne m ρ c main_arg5 (by decide)).trans ((host1_arg5 (W2 m ρ c)).trans (exit0_arg5 m ρ c))
theorem exit1_arg6 (c : Dev nD) : (W5 m ρ c (Proc.devRef .tc main_arg6) : Mat 256 128) = arg6 m c :=
  (W5_of_ne m ρ c main_arg6 (by decide)).trans ((host1_arg6 (W2 m ρ c)).trans (exit0_arg6 m ρ c))
theorem exit1_arg7 (c : Dev nD) : (W5 m ρ c (Proc.devRef .tc main_arg7) : FVec Ideal S128 .f32) = arg7 m c :=
  (W5_of_ne m ρ c main_arg7 (by decide)).trans ((host1_arg7 (W2 m ρ c)).trans (exit0_arg7 m ρ c))

/-! ## The first head's projection region at its entry (boundary 6)

  The two reshapes lay the self-loop coefficients out as a column and the head's bias as a row; the hidden
  features and the head's weights are read as they stand. -/

theorem entry2_x (c : Dev nD) :
    (W6 m ρ c (Proc.devRef .tc main_v38) : Mat 50000 256) = hidden (arg0 m c) (arg1 m c) (arg2 m c) (arg3 m c) :=
  (host2_v38 (W5 m ρ c)).trans (exit1_hidden m ρ c)
theorem entry2_w (c : Dev nD) : (W6 m ρ c (Proc.devRef .tc main_arg4) : Mat 256 128) = arg4 m c :=
  (host2_arg4 (W5 m ρ c)).trans (exit1_arg4 m ρ c)
theorem entry2_s (c : Dev nD) : (W6 m ρ c (Proc.devRef .tc main_v39) : Mat 50000 1) = selfCol (arg1 m c) := by
  refine (host2_selfCol (W5 m ρ c)).trans ?_
  rw [exit1_selfCoef]
  rfl
theorem entry2_b (c : Dev nD) : (W6 m ρ c (Proc.devRef .tc main_v40) : Mat 1 128) = biasRow128 (arg5 m c) := by
  refine (host2_biasRow (W5 m ρ c)).trans ?_
  rw [exit1_arg5]

/-! ## What the buffers hold after the first head's projection region (boundary 7) -/

theorem mid_hidden (c : Dev nD) :
    (W7 m ρ c (Proc.devRef .tc main_v38) : Mat 50000 256) = hidden (arg0 m c) (arg1 m c) (arg2 m c) (arg3 m c) :=
  ((W7_arr m ρ c 0).trans (((dat2 (V6 m ρ) c).arrAt_in 0 rfl _).trans (A_eq2 (V6 m ρ) c 0))).trans (entry2_x m ρ c)
theorem mid_proj (c : Dev nD) :
    (W7 m ρ c (Proc.devRef .tc main_v41_0) : Mat 50000 128) = headProj (arg0 m c) (arg1 m c) (arg2 m c) (arg3 m c) (arg4 m c) := by
  refine (W7_arr m ρ c 4).trans ((Region2.final_T (V6 m ρ) c).trans ?_)
  show matT (W6 m ρ c (Proc.devRef .tc main_v38) : Mat 50000 256) (W6 m ρ c (Proc.devRef .tc main_arg4) : Mat 256 128) = _
  rw [entry2_x, entry2_w]
  rfl
theorem mid_self (c : Dev nD) :
    (W7 m ρ c (Proc.devRef .tc main_v41_1) : Mat 50000 128) = headSelf (arg0 m c) (arg1 m c) (arg2 m c) (arg3 m c) (arg4 m c) (arg5 m c) := by
  refine (W7_arr m ρ c 5).trans ((Region2.final_ST (V6 m ρ) c).trans ?_)
  show selfTerm (matT (W6 m ρ c (Proc.devRef .tc main_v38) : Mat 50000 256) (W6 m ρ c (Proc.devRef .tc main_arg4) : Mat 256 128))
    (W6 m ρ c (Proc.devRef .tc main_v39) : Mat 50000 1) (W6 m ρ c (Proc.devRef .tc main_v40) : Mat 1 128) = _
  rw [entry2_x, entry2_w, entry2_s, entry2_b]
  rfl
theorem mid_src (c : Dev nD) : (W7 m ρ c (Proc.devRef .tc main_v1) : EdgeWords) = srcOf (arg1 m c) :=
  (W7_of_ne m ρ c main_v1 (by decide)).trans ((host2_v1 (W5 m ρ c)).trans (exit1_src m ρ c))
theorem mid_dst (c : Dev nD) : (W7 m ρ c (Proc.devRef .tc main_v3) : EdgeWords) = dstOf (arg1 m c) :=
  (W7_of_ne m ρ c main_v3 (by decide)).trans ((host2_v3 (W5 m ρ c)).trans (exit1_dst m ρ c))
theorem mid_coef (c : Dev nD) : (W7 m ρ c (Proc.devRef .tc main_v25) : EdgeReals) = edgeCoef (arg1 m c) :=
  (W7_of_ne m ρ c main_v25 (by decide)).trans ((host2_v25 (W5 m ρ c)).trans (exit1_coef m ρ c))
theorem mid_selfCoef (c : Dev nD) : (W7 m ρ c (Proc.devRef .tc main_v27) : FVec Ideal S50000 .f32) = selfCoef (arg1 m c) :=
  (W7_of_ne m ρ c main_v27 (by decide)).trans ((host2_v27 (W5 m ρ c)).trans (exit1_selfCoef m ρ c))
theorem mid_arg6 (c : Dev nD) : (W7 m ρ c (Proc.devRef .tc main_arg6) : Mat 256 128) = arg6 m c :=
  (W7_of_ne m ρ c main_arg6 (by decide)).trans ((host2_arg6 (W5 m ρ c)).trans (exit1_arg6 m ρ c))
theorem mid_arg7 (c : Dev nD) : (W7 m ρ c (Proc.devRef .tc main_arg7) : FVec Ideal S128 .f32) = arg7 m c :=
  (W7_of_ne m ρ c main_arg7 (by decide)).trans ((host2_arg7 (W5 m ρ c)).trans (exit1_arg7 m ρ c))

end Cert.Gcn.Fold

end
-- ==== Proof.Region3.lean ====
/-
  The combining region of the second layer's first head (region 3 of the program), read as a whole array: each
  of the grid's 25 points adds 2000 rows of the aggregate to the same rows of the self term. The row blocks tile
  the 50000 rows, so after the region the output array is the sum at every index.
-/
import proofs.«430112_j89627377533231_1_alg».proof.Proof.Gen.KernelIdeal.Frame
import proofs.«430112_j89627377533231_1_alg».proof.Proof.Spec
import proofs.«430112_j89627377533231_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.Gcn.Region3

open Cert.KernelIdeal Cert.KernelIdeal.Gen Cert.Gcn

variable (V : (c : Dev nD) → (b : Ref sig .tc) → Buf (Elt Ideal) ((c : Thread nD τ).loc b))

/-- The region's two input arrays as the region finds them, each at its literal type. -/
abbrev aA (c : Dev nD) : Mat 50000 128 := V c main_v48
abbrev stA (c : Dev nD) : Mat 50000 128 := V c main_v41_1

/-! ## The first head's arithmetic at one entry of a 2000 x 128 block -/

/-- A block's origin, the literal pair of zeros, is the zero function on the two axes. -/
theorem origin_zero3 : (![0, 0] : Fin 2 → Nat) = fun _ => 0 := funext fun a => by fin_cases a <;> rfl

/-- THE SUM STEP. The head's two loaded blocks, each recast to its own shape (no change), added: at row `r` and
    column `q` this is the sum of the two blocks' entries there. -/
theorem sum_at3 (x0 : Vec Ideal S2000x128 .f32) (x1 : Vec Ideal S2000x128 .f32) (r : Fin 2000) (q : Fin 128) :
    addf (F := Ideal) (φ := .f32) (shapeCast S2000x128 x0 shapeCasts_S2000x128_S2000x128)
        (shapeCast S2000x128 x1 shapeCasts_S2000x128_S2000x128) (ix2 r q)
      = (x0 (ix2 r q) : EReal) + (x1 (ix2 r q) : EReal) := by
  rw [shapeCast_self, shapeCast_self, addf_apply]

/-- The stored block at row `r` and column `q`: the sum of the two loaded entries, with nothing after it (a
    second-layer head is not clamped). -/
theorem payload_at3 (x0 : Vec Ideal S2000x128 .f32) (x1 : Vec Ideal S2000x128 .f32) (r : Fin 2000) (q : Fin 128) :
    k3_pay1 (F := Ideal) x0 x1 (ix2 r q) = (x0 (ix2 r q) : EReal) + (x1 (ix2 r q) : EReal) := by
  unfold k3_pay1
  exact sum_at3 x0 x1 r q

/-! ## The first head's grid: which rows each point's blocks hold -/

/-- The index maps over the 25 points: both inputs' blocks sit where the output's block sits, on both axes; the
    output's row-block index is at most 24 and its column-block index is 0. -/
theorem index_facts3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 24
    ∧ win3_2.index t (1 : Fin 2) = 0 :=
  (by decide +kernel : ∀ t : Fin grid3.N, _)

/-- Every row-block index from 0 to 24 is the output block index of some point. -/
theorem index_onto3 : ∀ q0 : Fin 25, ∃ t : Fin cfg3.N, win3_2.index t = ![q0.val, 0] :=
  (by decide +kernel : ∀ q0 : Fin 25, ∃ t : Fin grid3.N, win3_2.index t = ![q0.val, 0])

/-- An index of the 50000 x 128 output is in point `t`'s block iff each coordinate lies in the block's range on
    its axis: 2000 rows from the block index times 2000, and all 128 columns. -/
theorem mem_block3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v49).slice (win3_2.rect t)).set ↔ _
  rw [View.set_slice_whole, Rect.mem_set_unit]
  exact Iff.rfl

/-- WHAT POINT `t` WRITES BACK is block `t` of the sum of the head's two arrays as the region finds them. -/
theorem flushed3 (c : Dev nD) (t : Fin cfg3.N) :
    (dat3 (F := Ideal) V c).flushed 2 t
      = ((cfg3.win 2).blk t).view.read (Elt Ideal) (combine (aA V c) (stA V c)) := by
  show (cfg3.win 2).cut (grid3.coords t) ((dat3 V c).after 2 t) = _
  rw [after3_2]
  unfold out3_2
  rw [View.canon_unit_zero origin_zero3]
  simp only [View.ld_unit_zero (S := S2000x128) origin_zero3]
  obtain ⟨e0, e1, e2, e3, e4, e5⟩ := index_facts3 t
  funext j
  obtain ⟨r, q, rfl⟩ : ∃ (r : Fin 2000) (q : Fin 128), j = ix2 r q := ⟨j 0, j 1, eq_ix2 j⟩
  show k3_pay1 (F := Ideal) (iblk3 V c 0 t) (iblk3 V c 1 t) (ix2 r q)
      = combine (aA V c) (stA V c) (((cfg3.win 2).blk t).view.emb (ix2 r q))
  refine (payload_at3 (iblk3 V c 0 t) (iblk3 V c 1 t) r q).trans ?_
  show aA V c (((cfg3.win 0).blk t).view.emb (ix2 r q)) + stA V c (((cfg3.win 1).blk t).view.emb (ix2 r q))
      = aA V c (((cfg3.win 2).blk t).view.emb (ix2 r q)) + stA V c (((cfg3.win 2).blk t).view.emb (ix2 r q))
  have h0 : ((cfg3.win 0).blk t).view.emb (ix2 r q) = ((cfg3.win 2).blk t).view.emb (ix2 r q) := by
    funext a; apply Fin.ext
    match a with
    | ⟨0, _⟩ => show win3_0.index t (0 : Fin 2) * 2000 + 1 * r.val = win3_2.index t (0 : Fin 2) * 2000 + 1 * r.val; omega
    | ⟨1, _⟩ => show win3_0.index t (1 : Fin 2) * 128 + 1 * q.val = win3_2.index t (1 : Fin 2) * 128 + 1 * q.val; omega
  have h1 : ((cfg3.win 1).blk t).view.emb (ix2 r q) = ((cfg3.win 2).blk t).view.emb (ix2 r q) := by
    funext a; apply Fin.ext
    match a with
    | ⟨0, _⟩ => show win3_1.index t (0 : Fin 2) * 2000 + 1 * r.val = win3_2.index t (0 : Fin 2) * 2000 + 1 * r.val; omega
    | ⟨1, _⟩ => show win3_1.index t (1 : Fin 2) * 128 + 1 * q.val = win3_2.index t (1 : Fin 2) * 128 + 1 * q.val; omega
  rw [h0, h1]

/-- THE COVER. Row `i 0` lies in the block of the point whose row-block index is `i 0 / 2000`; every column lies
    in every block. So each index of the head's output is in some writing point's block. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the region the output array is the aggregate plus the self term. -/
theorem final (c : Dev nD) :
    ((dat3 (F := Ideal) V c).arrAt 2 cfg3.N : Mat 50000 128) = combine (aA V c) (stA V c) :=
  (dat3 (F := Ideal) V c).arrAt_eq_of_cover 2 (combine (aA V c) (stA V c)) (fun t _ => flushed3 V c t) cover3

end Cert.Gcn.Region3

end
-- ==== Proof.Region4.lean ====
/-
  The second layer's other head, read as whole arrays: it reads the same hidden features [50000, 256] as the first
  head, against its own weight matrix [256, 128], coefficients and bias. The grid's 25 points each take 2000 hidden
  rows, multiply them by the whole weight matrix, and write back 2000 rows of this head's projection and 2000 rows
  of its self term. The row blocks tile the 50000 rows, so after the region the first output array is the matrix
  product and the second is the self term of it, at every index.
-/
import proofs.«430112_j89627377533231_1_alg».proof.Proof.Gen.KernelIdeal.Frame
import proofs.«430112_j89627377533231_1_alg».proof.Proof.Spec
import proofs.«430112_j89627377533231_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.Gcn.Region4

open Cert.KernelIdeal Cert.KernelIdeal.Gen Cert.Gcn

variable (V : (c : Dev nD) → (b : Ref sig .tc) → Buf (Elt Ideal) ((c : Thread nD τ).loc b))

/-- The region's four input arrays as the region finds them, each at its literal type. -/
abbrev xA (c : Dev nD) : Mat 50000 256 := V c main_v38
abbrev wA (c : Dev nD) : Mat 256 128 := V c main_arg6
abbrev sA (c : Dev nD) : Mat 50000 1 := V c main_v50
abbrev bA (c : Dev nD) : Mat 1 128 := V c main_v51

/-! ## This head's arithmetic at one entry of a block -/

/-- A whole-buffer access starts at offset zero on both axes. -/
theorem origin_zero : (![0, 0] : Fin 2 → Nat) = fun _ => 0 := funext fun a => by fin_cases a <;> rfl

/-- This head's projection of a block at entry `(r, q)`: row `r` of the 2000 hidden rows against column `q` of this
    head's weights. Recasting the hidden block to its own shape and narrowing both operands change nothing on the
    extended reals, and the accumulator starts at zero. -/
theorem other_at (x0 : Vec Ideal S2000x256 .f32) (x1 : Vec Ideal S256x128 .f32) (r : Fin 2000) (q : Fin 128) :
    k4_pay1 (F := Ideal) x0 x1 (ix2 r q) = ∑ k : Fin 256, x0 (ix2 r k) * x1 (ix2 k q) := by
  unfold k4_pay1
  refine (Cert.PlainDot.matmul_zero_apply (M := 2000) (K := 256) (N := 128) dot_S2000x256_S256x128_S2000x128_1_0_0_1_n_n rfl none
    (truncf (F := Ideal) .bf16 (shapeCast S2000x256 x0 shapeCasts_S2000x256_S2000x256) bitsLt_bf16_f32)
    (truncf (F := Ideal) .bf16 x1 bitsLt_bf16_f32) (ix2 r q)).trans ?_
  rw [shapeCast_self]
  rfl

/-- This head's self term of a block at entry `(r, q)`: its projection there, times the coefficient of row `r` (a
    column spread along the row), plus its bias of column `q` (a row spread down the column). -/
theorem other_self_at (x0 : Vec Ideal S2000x256 .f32) (x1 : Vec Ideal S256x128 .f32) (x2 : Vec Ideal S2000x1 .f32)
    (x3 : Vec Ideal S1x128 .f32) (r : Fin 2000) (q : Fin 128) :
    k4_pay2 (F := Ideal) x0 x1 x2 x3 (ix2 r q)
      = (∑ k : Fin 256, x0 (ix2 r k) * x1 (ix2 k q)) * x2 (ix2 r 0) + x3 (ix2 0 q) := by
  unfold k4_pay2
  show addf (F := Ideal)
      (mulf (F := Ideal) (k4_pay1 (F := Ideal) x0 x1)
        (broadcastTo S2000x128 (shapeCast S2000x1 x2 shapeCasts_S2000x1_S2000x1) broadcasts_S2000x1_S2000x128))
      (broadcastTo S2000x128 (shapeCast S1x128 x3 shapeCasts_S1x128_S1x128) broadcasts_S1x128_S2000x128) (ix2 r q) = _
  rw [addf_apply, mulf_apply, other_at, shapeCast_self, shapeCast_self]
  rw [broadcastTo_apply x2 broadcasts_S2000x1_S2000x128 (ix2 r q) (ix2 r 0) (by
        intro a
        match a with
        | ⟨0, _⟩ => rfl
        | ⟨1, _⟩ => rfl),
      broadcastTo_apply x3 broadcasts_S1x128_S2000x128 (ix2 r q) (ix2 0 q) (by
        intro a
        match a with
        | ⟨0, _⟩ => rfl
        | ⟨1, _⟩ => rfl)]

/-! ## Where each window's block sits -/

/-- The block indices over the grid's 25 points: the four row-blocked windows (hidden features, this head's
    coefficients and its two outputs) sit at row block `t` and column block 0; the two whole-array windows (this
    head's weights and bias) at block `(0, 0)`. -/
theorem blk_idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Every row block 0..24 of this head's projection array is some point's. -/
theorem blk_onto_T : ∀ q0 : Fin 25, ∃ t : Fin cfg4.N, win4_4.index t = ![q0.val, 0] :=
  (by decide +kernel : ∀ q0 : Fin 25, ∃ t : Fin grid4.N, win4_4.index t = ![q0.val, 0])

/-- Every row block 0..24 of this head's self-term array is some point's. -/
theorem blk_onto_ST : ∀ q0 : Fin 25, ∃ t : Fin cfg4.N, win4_5.index t = ![q0.val, 0] :=
  (by decide +kernel : ∀ q0 : Fin 25, ∃ t : Fin grid4.N, win4_5.index t = ![q0.val, 0])

/-- Entry `(r, k)` of the hidden block at point `t` is entry `(2000 t + r, k)` of the hidden array. -/
theorem h_blk_at (c : Dev nD) (t : Fin cfg4.N) (r : Fin 2000) (k : Fin 256) (i : Fin 50000)
    (hi : i.val = t.val * 2000 + r.val) :
    (iblk4 (F := Ideal) V c 0 t : Vec Ideal S2000x256 .f32) (ix2 r k) = xA V c (ix2 i k) := by
  obtain ⟨e00, e01, -⟩ := blk_idx t
  show V c main_v38 (((cfg4.win 0).blk t).view.emb (ix2 r k)) = V c main_v38 (ix2 i k)
  refine congrArg (V c main_v38) ?_
  funext a; apply Fin.ext
  match a with
  | ⟨0, _⟩ => show win4_0.index t (0 : Fin 2) * 2000 + 1 * r.val = i.val; omega
  | ⟨1, _⟩ => show win4_0.index t (1 : Fin 2) * 256 + 1 * k.val = k.val; omega

/-- This head's weight block at every point is its whole weight array. -/
theorem w_blk_at (c : Dev nD) (t : Fin cfg4.N) (k : Fin 256) (q : Fin 128) :
    (iblk4 (F := Ideal) V c 1 t : Vec Ideal S256x128 .f32) (ix2 k q) = wA V c (ix2 k q) := by
  obtain ⟨-, -, e10, e11, -⟩ := blk_idx t
  show V c main_arg6 (((cfg4.win 1).blk t).view.emb (ix2 k q)) = V c main_arg6 (ix2 k q)
  refine congrArg (V c main_arg6) ?_
  funext a; apply Fin.ext
  match a with
  | ⟨0, _⟩ => show win4_1.index t (0 : Fin 2) * 256 + 1 * k.val = k.val; omega
  | ⟨1, _⟩ => show win4_1.index t (1 : Fin 2) * 128 + 1 * q.val = q.val; omega

/-- Entry `(r, 0)` of the coefficient block at point `t` is entry `(2000 t + r, 0)` of the coefficient column. -/
theorem s_blk_at (c : Dev nD) (t : Fin cfg4.N) (r : Fin 2000) (i : Fin 50000)
    (hi : i.val = t.val * 2000 + r.val) :
    (iblk4 (F := Ideal) V c 2 t : Vec Ideal S2000x1 .f32) (ix2 r 0) = sA V c (ix2 i 0) := by
  obtain ⟨-, -, -, -, e20, e21, -⟩ := blk_idx t
  show V c main_v50 (((cfg4.win 2).blk t).view.emb (ix2 r 0)) = V c main_v50 (ix2 i 0)
  refine congrArg (V c main_v50) ?_
  funext a; apply Fin.ext
  match a with
  | ⟨0, _⟩ => show win4_2.index t (0 : Fin 2) * 2000 + 1 * r.val = i.val; omega
  | ⟨1, _⟩ => show win4_2.index t (1 : Fin 2) * 1 + 1 * 0 = 0; omega

/-- This head's bias block at every point is its whole bias row. -/
theorem b_blk_at (c : Dev nD) (t : Fin cfg4.N) (q : Fin 128) :
    (iblk4 (F := Ideal) V c 3 t : Vec Ideal S1x128 .f32) (ix2 0 q) = bA V c (ix2 0 q) := by
  obtain ⟨-, -, -, -, -, -, e30, e31, -⟩ := blk_idx t
  show V c main_v51 (((cfg4.win 3).blk t).view.emb (ix2 0 q)) = V c main_v51 (ix2 0 q)
  refine congrArg (V c main_v51) ?_
  funext a; apply Fin.ext
  match a with
  | ⟨0, _⟩ => show win4_3.index t (0 : Fin 2) * 1 + 1 * 0 = 0; omega
  | ⟨1, _⟩ => show win4_3.index t (1 : Fin 2) * 128 + 1 * q.val = q.val; omega

/-! ## What each point writes back -/

/-- Point `t` writes back to this head's projection array block `t` of the matrix product: entry `(r, q)` of what it
    wrote is the product's entry `(2000 t + r, q)`, which depends on row `2000 t + r` of the hidden features and on
    all of this head's weights. -/
theorem flushed_T (c : Dev nD) (t : Fin cfg4.N) :
    (dat4 (F := Ideal) V c).flushed 4 t = ((cfg4.win 4).blk t).view.read (Elt Ideal) (matT (xA V c) (wA V c)) := by
  show (cfg4.win 4).cut (grid4.coords t) ((dat4 V c).after 4 t) = _
  rw [after4_4]
  unfold out4_4
  rw [View.canon_unit_zero origin_zero]
  simp only [View.ld_unit_zero (S := S2000x256) origin_zero, View.ld_unit_zero (S := S256x128) origin_zero]
  funext j
  show k4_pay1 (F := Ideal) (iblk4 V c 0 t) (iblk4 V c 1 t) ((win4 4).xinj (grid4.coords t) j)
    = matT (xA V c) (wA V c) (((cfg4.win 4).blk t).view.emb j)
  refine (congrArg (k4_pay1 (F := Ideal) (iblk4 V c 0 t) (iblk4 V c 1 t))
    (eq_ix2 (n0 := 2000) (n1 := 128) ((win4 4).xinj (grid4.coords t) j))).trans ?_
  refine (other_at (iblk4 V c 0 t) (iblk4 V c 1 t) _ _).trans ?_
  show _ = ∑ k : Fin 256, xA V c (ix2 ((((cfg4.win 4).blk t).view.emb j) 0) k)
    * wA V c (ix2 k ((((cfg4.win 4).blk t).view.emb j) 1))
  obtain ⟨-, -, -, -, -, -, -, -, e40, e41, -⟩ := blk_idx t
  refine Finset.sum_congr rfl fun k _ => ?_
  refine congrArg₂ (· * ·) (h_blk_at V c t _ k _ ?_)
    ((w_blk_at V c t k _).trans (congrArg (fun q => wA V c (ix2 k q)) (Fin.ext ?_)))
  · show win4_4.index t (0 : Fin 2) * 2000 + 1 * (j 0).val = t.val * 2000 + (j 0).val; omega
  · show (j 1).val = win4_4.index t (1 : Fin 2) * 128 + 1 * (j 1).val; omega

/-- Point `t` writes back to this head's self-term array block `t` of the self term of the matrix product: entry
    `(r, q)` of what it wrote is the self term's entry `(2000 t + r, q)`, which depends on row `2000 t + r` of the
    hidden features and of the coefficients, on all of this head's weights and on its bias. -/
theorem flushed_ST (c : Dev nD) (t : Fin cfg4.N) :
    (dat4 (F := Ideal) V c).flushed 5 t
      = ((cfg4.win 5).blk t).view.read (Elt Ideal) (selfTerm (matT (xA V c) (wA V c)) (sA V c) (bA V c)) := by
  show (cfg4.win 5).cut (grid4.coords t) ((dat4 V c).after 5 t) = _
  rw [after4_5]
  unfold out4_5
  rw [View.canon_unit_zero origin_zero]
  simp only [View.ld_unit_zero (S := S2000x256) origin_zero, View.ld_unit_zero (S := S256x128) origin_zero,
    View.ld_unit_zero (S := S2000x1) origin_zero, View.ld_unit_zero (S := S1x128) origin_zero]
  funext j
  show k4_pay2 (F := Ideal) (iblk4 V c 0 t) (iblk4 V c 1 t) (iblk4 V c 2 t) (iblk4 V c 3 t)
      ((win4 5).xinj (grid4.coords t) j)
    = selfTerm (matT (xA V c) (wA V c)) (sA V c) (bA V c) (((cfg4.win 5).blk t).view.emb j)
  refine (congrArg (k4_pay2 (F := Ideal) (iblk4 V c 0 t) (iblk4 V c 1 t) (iblk4 V c 2 t) (iblk4 V c 3 t))
    (eq_ix2 (n0 := 2000) (n1 := 128) ((win4 5).xinj (grid4.coords t) j))).trans ?_
  refine (other_self_at (iblk4 V c 0 t) (iblk4 V c 1 t) (iblk4 V c 2 t) (iblk4 V c 3 t) _ _).trans ?_
  show _ = (∑ k : Fin 256, xA V c (ix2 ((((cfg4.win 5).blk t).view.emb j) 0) k)
      * wA V c (ix2 k ((((cfg4.win 5).blk t).view.emb j) 1)))
    * sA V c (ix2 ((((cfg4.win 5).blk t).view.emb j) 0) 0) + bA V c (ix2 0 ((((cfg4.win 5).blk t).view.emb j) 1))
  obtain ⟨-, -, -, -, -, -, -, -, -, -, e50, e51⟩ := blk_idx t
  have hrow : ((((cfg4.win 5).blk t).view.emb j) 0).val = t.val * 2000 + (j 0).val := by
    show win4_5.index t (0 : Fin 2) * 2000 + 1 * (j 0).val = t.val * 2000 + (j 0).val; omega
  have hcol : (j 1).val = ((((cfg4.win 5).blk t).view.emb j) 1).val := by
    show (j 1).val = win4_5.index t (1 : Fin 2) * 128 + 1 * (j 1).val; omega
  refine congrArg₂ (· + ·) (congrArg₂ (· * ·) (Finset.sum_congr rfl fun k _ => ?_) (s_blk_at V c t _ _ hrow))
    ((b_blk_at V c t _).trans (congrArg (fun q => bA V c (ix2 0 q)) (Fin.ext hcol)))
  exact congrArg₂ (· * ·) (h_blk_at V c t _ k _ hrow)
    ((w_blk_at V c t k _).trans (congrArg (fun q => wA V c (ix2 k q)) (Fin.ext hcol)))

/-! ## The blocks tile the rows -/

/-- An index of this head's projection array is in point `t`'s block iff each coordinate is in the block's range. -/
theorem mem_blk_T (t : Fin cfg4.N) (i : S50000x128.Idx) :
    i ∈ ((cfg4.win 4).blk t).view.set ↔ ∀ a : Fin 2, win4_4.index t a * S2000x128.size a ≤ (i a).val
      ∧ (i a).val < win4_4.index t a * S2000x128.size a + S2000x128.size a := by
  show i ∈ ((View.whole main_v52_0).slice (win4_4.rect t)).set ↔ _
  rw [View.set_slice_whole, Rect.mem_set_unit]
  exact Iff.rfl

/-- An index of this head's self-term array is in point `t`'s block iff each coordinate is in the block's range. -/
theorem mem_blk_ST (t : Fin cfg4.N) (i : S50000x128.Idx) :
    i ∈ ((cfg4.win 5).blk t).view.set ↔ ∀ a : Fin 2, win4_5.index t a * S2000x128.size a ≤ (i a).val
      ∧ (i a).val < win4_5.index t a * S2000x128.size a + S2000x128.size a := by
  show i ∈ ((View.whole main_v52_1).slice (win4_5.rect t)).set ↔ _
  rw [View.set_slice_whole, Rect.mem_set_unit]
  exact Iff.rfl

/-- Row `i` of this head's projection array is in the block of the point whose row block is `i / 2000`. -/
theorem cover_T (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ := blk_onto_T ⟨(i 0).val / 2000, by omega⟩
  have q0 : win4_4.index t (0 : Fin 2) = (i 0).val / 2000 := congrFun ht 0
  have q1 : win4_4.index t (1 : Fin 2) = 0 := congrFun ht 1
  refine ⟨t, flush4_4 t, ?_⟩
  rw [mem_blk_T]
  intro a
  match a with
  | ⟨0, _⟩ =>
    show win4_4.index t (0 : Fin 2) * 2000 ≤ (i 0).val ∧ (i 0).val < win4_4.index t (0 : Fin 2) * 2000 + 2000
    omega
  | ⟨1, _⟩ =>
    show win4_4.index t (1 : Fin 2) * 128 ≤ (i 1).val ∧ (i 1).val < win4_4.index t (1 : Fin 2) * 128 + 128
    omega

/-- Row `i` of this head's self-term array is in the block of the point whose row block is `i / 2000`. -/
theorem cover_ST (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := blk_onto_ST ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_blk_ST]
  intro a
  match a with
  | ⟨0, _⟩ =>
    show win4_5.index t (0 : Fin 2) * 2000 ≤ (i 0).val ∧ (i 0).val < win4_5.index t (0 : Fin 2) * 2000 + 2000
    omega
  | ⟨1, _⟩ =>
    show win4_5.index t (1 : Fin 2) * 128 ≤ (i 1).val ∧ (i 1).val < win4_5.index t (1 : Fin 2) * 128 + 128
    omega

/-! ## The two arrays after the region -/

/-- After the region the projection's array is the matrix product of the features and the weights. -/
theorem final_T (c : Dev nD) :
    ((dat4 (F := Ideal) V c).arrAt 4 cfg4.N : Mat 50000 128) = matT (xA V c) (wA V c) :=
  (dat4 (F := Ideal) V c).arrAt_eq_of_cover 4 (matT (xA V c) (wA V c)) (fun t _ => flushed_T V c t) cover_T

/-- After the region the self term's array is the self term of that product. -/
theorem final_ST (c : Dev nD) :
    ((dat4 (F := Ideal) V c).arrAt 5 cfg4.N : Mat 50000 128) = selfTerm (matT (xA V c) (wA V c)) (sA V c) (bA V c) :=
  (dat4 (F := Ideal) V c).arrAt_eq_of_cover 5 (selfTerm (matT (xA V c) (wA V c)) (sA V c) (bA V c))
    (fun t _ => flushed_ST V c t) cover_ST

end Cert.Gcn.Region4

end
-- ==== Proof.Region5.lean ====
/-
  The combining region of the second layer's second head (region 5 of the program), read as a whole array: each
  of the grid's 25 points adds 2000 rows of the aggregate to the same rows of the self term. The row blocks tile
  the 50000 rows, so after the region the output array is the sum at every index.
-/
import proofs.«430112_j89627377533231_1_alg».proof.Proof.Gen.KernelIdeal.Frame
import proofs.«430112_j89627377533231_1_alg».proof.Proof.Spec
import proofs.«430112_j89627377533231_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.Gcn.Region5

open Cert.KernelIdeal Cert.KernelIdeal.Gen Cert.Gcn

variable (V : (c : Dev nD) → (b : Ref sig .tc) → Buf (Elt Ideal) ((c : Thread nD τ).loc b))

/-- The region's two input arrays as the region finds them, each at its literal type. -/
abbrev aA (c : Dev nD) : Mat 50000 128 := V c main_v59
abbrev stA (c : Dev nD) : Mat 50000 128 := V c main_v52_1

/-! ## The second head's arithmetic at one entry of a 2000 x 128 block -/

/-- A block's origin, the literal pair of zeros, is the zero function on the two axes. -/
theorem origin_zero5 : (![0, 0] : Fin 2 → Nat) = fun _ => 0 := funext fun a => by fin_cases a <;> rfl

/-- THE SUM STEP. The head's two loaded blocks, each recast to its own shape (no change), added: at row `r` and
    column `q` this is the sum of the two blocks' entries there. -/
theorem sum_at5 (x0 : Vec Ideal S2000x128 .f32) (x1 : Vec Ideal S2000x128 .f32) (r : Fin 2000) (q : Fin 128) :
    addf (F := Ideal) (φ := .f32) (shapeCast S2000x128 x0 shapeCasts_S2000x128_S2000x128)
        (shapeCast S2000x128 x1 shapeCasts_S2000x128_S2000x128) (ix2 r q)
      = (x0 (ix2 r q) : EReal) + (x1 (ix2 r q) : EReal) := by
  rw [shapeCast_self, shapeCast_self, addf_apply]

/-- The stored block at row `r` and column `q`: the sum of the two loaded entries, with nothing after it (a
    second-layer head is not clamped). -/
theorem payload_at5 (x0 : Vec Ideal S2000x128 .f32) (x1 : Vec Ideal S2000x128 .f32) (r : Fin 2000) (q : Fin 128) :
    k5_pay1 (F := Ideal) x0 x1 (ix2 r q) = (x0 (ix2 r q) : EReal) + (x1 (ix2 r q) : EReal) := by
  unfold k5_pay1
  exact sum_at5 x0 x1 r q

/-! ## The second head's grid: which rows each point's blocks hold -/

/-- The index maps over the 25 points: both inputs' blocks sit where the output's block sits, on both axes; the
    output's row-block index is at most 24 and its column-block index is 0. -/
theorem index_facts5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 24
    ∧ win5_2.index t (1 : Fin 2) = 0 :=
  (by decide +kernel : ∀ t : Fin grid5.N, _)

/-- Every row-block index from 0 to 24 is the output block index of some point. -/
theorem index_onto5 : ∀ q0 : Fin 25, ∃ t : Fin cfg5.N, win5_2.index t = ![q0.val, 0] :=
  (by decide +kernel : ∀ q0 : Fin 25, ∃ t : Fin grid5.N, win5_2.index t = ![q0.val, 0])

/-- An index of the 50000 x 128 output is in point `t`'s block iff each coordinate lies in the block's range on
    its axis: 2000 rows from the block index times 2000, and all 128 columns. -/
theorem mem_block5 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v60).slice (win5_2.rect t)).set ↔ _
  rw [View.set_slice_whole, Rect.mem_set_unit]
  exact Iff.rfl

/-- WHAT POINT `t` WRITES BACK is block `t` of the sum of the head's two arrays as the region finds them. -/
theorem flushed5 (c : Dev nD) (t : Fin cfg5.N) :
    (dat5 (F := Ideal) V c).flushed 2 t
      = ((cfg5.win 2).blk t).view.read (Elt Ideal) (combine (aA V c) (stA V c)) := by
  show (cfg5.win 2).cut (grid5.coords t) ((dat5 V c).after 2 t) = _
  rw [after5_2]
  unfold out5_2
  rw [View.canon_unit_zero origin_zero5]
  simp only [View.ld_unit_zero (S := S2000x128) origin_zero5]
  obtain ⟨e0, e1, e2, e3, e4, e5⟩ := index_facts5 t
  funext j
  obtain ⟨r, q, rfl⟩ : ∃ (r : Fin 2000) (q : Fin 128), j = ix2 r q := ⟨j 0, j 1, eq_ix2 j⟩
  show k5_pay1 (F := Ideal) (iblk5 V c 0 t) (iblk5 V c 1 t) (ix2 r q)
      = combine (aA V c) (stA V c) (((cfg5.win 2).blk t).view.emb (ix2 r q))
  refine (payload_at5 (iblk5 V c 0 t) (iblk5 V c 1 t) r q).trans ?_
  show aA V c (((cfg5.win 0).blk t).view.emb (ix2 r q)) + stA V c (((cfg5.win 1).blk t).view.emb (ix2 r q))
      = aA V c (((cfg5.win 2).blk t).view.emb (ix2 r q)) + stA V c (((cfg5.win 2).blk t).view.emb (ix2 r q))
  have h0 : ((cfg5.win 0).blk t).view.emb (ix2 r q) = ((cfg5.win 2).blk t).view.emb (ix2 r q) := by
    funext a; apply Fin.ext
    match a with
    | ⟨0, _⟩ => show win5_0.index t (0 : Fin 2) * 2000 + 1 * r.val = win5_2.index t (0 : Fin 2) * 2000 + 1 * r.val; omega
    | ⟨1, _⟩ => show win5_0.index t (1 : Fin 2) * 128 + 1 * q.val = win5_2.index t (1 : Fin 2) * 128 + 1 * q.val; omega
  have h1 : ((cfg5.win 1).blk t).view.emb (ix2 r q) = ((cfg5.win 2).blk t).view.emb (ix2 r q) := by
    funext a; apply Fin.ext
    match a with
    | ⟨0, _⟩ => show win5_1.index t (0 : Fin 2) * 2000 + 1 * r.val = win5_2.index t (0 : Fin 2) * 2000 + 1 * r.val; omega
    | ⟨1, _⟩ => show win5_1.index t (1 : Fin 2) * 128 + 1 * q.val = win5_2.index t (1 : Fin 2) * 128 + 1 * q.val; omega
  rw [h0, h1]

/-- THE COVER. Row `i 0` lies in the block of the point whose row-block index is `i 0 / 2000`; every column lies
    in every block. So each index of the head's output is in some writing point's block. -/
theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := index_onto5 ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_block5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- After the region the output array is the aggregate plus the self term. -/
theorem final (c : Dev nD) :
    ((dat5 (F := Ideal) V c).arrAt 2 cfg5.N : Mat 50000 128) = combine (aA V c) (stA V c) :=
  (dat5 (F := Ideal) V c).arrAt_eq_of_cover 2 (combine (aA V c) (stA V c)) (fun t _ => flushed5 V c t) cover5

end Cert.Gcn.Region5

end
-- ==== Proof.KernelFold.lean ====
/-
  The kernel program's two results as functions of its arguments.

  @main is fifteen segments: stretches of host operations and six kernel regions. What each buffer holds at a
  segment boundary is a fold from the launch memory: a host stretch rewrites the buffers its operations
  write, a region leaves each of its output arrays at what its grid points wrote back and every other buffer
  as it found it. Read back through that fold, the first result is the first head's output and the second
  result the second head's, each as the functions of `KernelValue.lean` of the eight argument arrays.

  This module walks the second half of the fold, from the boundary after the first head's projection region
  (boundary 7) to the last one (boundary 15): the first head's lookup and aggregate (boundaries 8, 9) and its
  combining region (10); the second head's reshapes (11), projection region (12), lookup and aggregate (13, 14)
  and combining region (15). The first result is written at boundary 10 and carried untouched to the end.
-/
import proofs.«430112_j89627377533231_1_alg».proof.Proof.Gen.KernelIdeal.Frame
import proofs.«430112_j89627377533231_1_alg».proof.Proof.KernelValue
import proofs.«430112_j89627377533231_1_alg».proof.Proof.KernelFoldA
import proofs.«430112_j89627377533231_1_alg».proof.Proof.Region3
import proofs.«430112_j89627377533231_1_alg».proof.Proof.Region4
import proofs.«430112_j89627377533231_1_alg».proof.Proof.Region5
import Idealize.ShloMosaic.Lib.StableHlo.Run

set_option maxRecDepth 16384

noncomputable section

namespace Cert.Gcn.Fold

open Cert.KernelIdeal Cert.KernelIdeal.Facts₀ Cert.KernelIdeal.Facts Cert.KernelIdeal.Gen Cert.Gcn
open Idealize.ShloMosaic Idealize.ShloMosaic.TcCoe Idealize.ShloMosaic.ValueIdx Idealize.ShloMosaic.StableHlo Idealize.SL.Sem

/-- A host stretch leaves a buffer that none of its operations writes as it found it. -/
macro "host_keeps " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What a host stretch leaves in the buffers it writes, over any contents at its entry -/

section Host

variable (W : Valuation τ sig (Elt Ideal))

set_option maxHeartbeats 8000000 in
/-- The first head's guarded lookup and aggregate: the source rows of the projection, each scaled by its edge's
    coefficient and added into its destination's row. -/
theorem agg_head0 :
    (StableHlo.after (hostOps3_1 (F := Ideal)) (StableHlo.after (hostOps3 (F := Ideal)) W) (Proc.devRef .tc main_v48) : Mat 50000 128)
      = aggOf128 (takeRows128 (W (Proc.devRef .tc main_v1)) (W (Proc.devRef .tc main_v41_0)))
          (W (Proc.devRef .tc main_v3)) (W (Proc.devRef .tc main_v25)) := by
  after_results_simp
  simp only [StableHlo.TRef.toBuf, StableHlo.TRef.ofBuf, cast_eq]
  rfl

set_option maxHeartbeats 8000000 in
/-- The second head's guarded lookup and aggregate. -/
theorem agg_head1 :
    (StableHlo.after (hostOps5_1 (F := Ideal)) (StableHlo.after (hostOps5 (F := Ideal)) W) (Proc.devRef .tc main_v59) : Mat 50000 128)
      = aggOf128 (takeRows128 (W (Proc.devRef .tc main_v1)) (W (Proc.devRef .tc main_v52_0)))
          (W (Proc.devRef .tc main_v3)) (W (Proc.devRef .tc main_v25)) := by
  after_results_simp
  simp only [StableHlo.TRef.toBuf, StableHlo.TRef.ofBuf, cast_eq]
  rfl

/-- The second head's self-loop column: the self-loop coefficients reshaped. -/
theorem col_head1 :
    (StableHlo.after (hostOps4 (F := Ideal)) W (Proc.devRef .tc main_v50) : Mat 50000 1)
      = shapeCast S50000x1 (W (Proc.devRef .tc main_v27) : FVec Ideal S50000 .f32) Facts₀.shapeCasts_S50000_S50000x1 := by
  after_results
  rfl

/-- The second head's bias row: its bias reshaped. -/
theorem bias_head1 :
    (StableHlo.after (hostOps4 (F := Ideal)) W (Proc.devRef .tc main_v51) : Mat 1 128)
      = biasRow128 (W (Proc.devRef .tc main_arg7)) := by
  after_results
  rfl

end Host

variable (m : (ℓ : Loc nD τ sig) → Buf (Elt Ideal) ℓ) (ρ : Dev nD → PrngReg)

/-! ## Buffers carried untouched across segments

A host stretch writes only its operations' result buffers, a region only its output arrays: every other buffer
holds at the later boundary what it held at the earlier one. -/

/-- The first head's self term is untouched by the first head's lookup and aggregate. -/
theorem keep_main_v41_1_7_9 (c : Dev nD) :
    W9 m ρ c (Proc.devRef .tc main_v41_1) = W7 m ρ c (Proc.devRef .tc main_v41_1) :=
  calc W9 m ρ c (Proc.devRef .tc main_v41_1)
    _ = W8 m ρ c (Proc.devRef .tc main_v41_1) := by host_keeps hostOps3_1 main_v41_1
    _ = W7 m ρ c (Proc.devRef .tc main_v41_1) := by host_keeps hostOps3 main_v41_1

/-- The hidden features are untouched up to the second head's projection region. -/
theorem keep_main_v38_7_11 (c : Dev nD) :
    W11 m ρ c (Proc.devRef .tc main_v38) = W7 m ρ c (Proc.devRef .tc main_v38) :=
  calc W11 m ρ c (Proc.devRef .tc main_v38)
    _ = W10 m ρ c (Proc.devRef .tc main_v38) := by host_keeps hostOps4 main_v38
    _ = W9 m ρ c (Proc.devRef .tc main_v38) := W10_of_ne m ρ c main_v38 (by decide)
    _ = W8 m ρ c (Proc.devRef .tc main_v38) := by host_keeps hostOps3_1 main_v38
    _ = W7 m ρ c (Proc.devRef .tc main_v38) := by host_keeps hostOps3 main_v38

/-- The second head's weights are untouched up to the second head's projection region. -/
theorem keep_main_arg6_7_11 (c : Dev nD) :
    W11 m ρ c (Proc.devRef .tc main_arg6) = W7 m ρ c (Proc.devRef .tc main_arg6) :=
  calc W11 m ρ c (Proc.devRef .tc main_arg6)
    _ = W10 m ρ c (Proc.devRef .tc main_arg6) := by host_keeps hostOps4 main_arg6
    _ = W9 m ρ c (Proc.devRef .tc main_arg6) := W10_of_ne m ρ c main_arg6 (by decide)
    _ = W8 m ρ c (Proc.devRef .tc main_arg6) := by host_keeps hostOps3_1 main_arg6
    _ = W7 m ρ c (Proc.devRef .tc main_arg6) := by host_keeps hostOps3 main_arg6

/-- The self-loop coefficients are untouched up to the second head's reshapes. -/
theorem keep_main_v27_7_10 (c : Dev nD) :
    W10 m ρ c (Proc.devRef .tc main_v27) = W7 m ρ c (Proc.devRef .tc main_v27) :=
  calc W10 m ρ c (Proc.devRef .tc main_v27)
    _ = W9 m ρ c (Proc.devRef .tc main_v27) := W10_of_ne m ρ c main_v27 (by decide)
    _ = W8 m ρ c (Proc.devRef .tc main_v27) := by host_keeps hostOps3_1 main_v27
    _ = W7 m ρ c (Proc.devRef .tc main_v27) := by host_keeps hostOps3 main_v27

/-- The second head's bias is untouched up to the second head's reshapes. -/
theorem keep_main_arg7_7_10 (c : Dev nD) :
    W10 m ρ c (Proc.devRef .tc main_arg7) = W7 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := by host_keeps hostOps3_1 main_arg7
    _ = W7 m ρ c (Proc.devRef .tc main_arg7) := by host_keeps hostOps3 main_arg7

/-- The edge sources are untouched up to the second head's lookup. -/
theorem keep_main_v1_7_12 (c : Dev nD) :
    W12 m ρ c (Proc.devRef .tc main_v1) = W7 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := by host_keeps hostOps4 main_v1
    _ = W9 m ρ c (Proc.devRef .tc main_v1) := W10_of_ne m ρ c main_v1 (by decide)
    _ = W8 m ρ c (Proc.devRef .tc main_v1) := by host_keeps hostOps3_1 main_v1
    _ = W7 m ρ c (Proc.devRef .tc main_v1) := by host_keeps hostOps3 main_v1

/-- The edge destinations are untouched up to the second head's aggregate. -/
theorem keep_main_v3_7_12 (c : Dev nD) :
    W12 m ρ c (Proc.devRef .tc main_v3) = W7 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by host_keeps hostOps4 main_v3
    _ = W9 m ρ c (Proc.devRef .tc main_v3) := W10_of_ne m ρ c main_v3 (by decide)
    _ = W8 m ρ c (Proc.devRef .tc main_v3) := by host_keeps hostOps3_1 main_v3
    _ = W7 m ρ c (Proc.devRef .tc main_v3) := by host_keeps hostOps3 main_v3

/-- The edge coefficients are untouched up to the second head's aggregate. -/
theorem keep_main_v25_7_12 (c : Dev nD) :
    W12 m ρ c (Proc.devRef .tc main_v25) = W7 m ρ c (Proc.devRef .tc main_v25) :=
  calc W12 m ρ c (Proc.devRef .tc main_v25)
    _ = W11 m ρ c (Proc.devRef .tc main_v25) := W12_of_ne m ρ c main_v25 (by decide)
    _ = W10 m ρ c (Proc.devRef .tc main_v25) := by host_keeps hostOps4 main_v25
    _ = W9 m ρ c (Proc.devRef .tc main_v25) := W10_of_ne m ρ c main_v25 (by decide)
    _ = W8 m ρ c (Proc.devRef .tc main_v25) := by host_keeps hostOps3_1 main_v25
    _ = W7 m ρ c (Proc.devRef .tc main_v25) := by host_keeps hostOps3 main_v25

/-- The second head's self term is untouched by the second head's lookup and aggregate. -/
theorem keep_main_v52_1_12_14 (c : Dev nD) :
    W14 m ρ c (Proc.devRef .tc main_v52_1) = W12 m ρ c (Proc.devRef .tc main_v52_1) :=
  calc W14 m ρ c (Proc.devRef .tc main_v52_1)
    _ = W13 m ρ c (Proc.devRef .tc main_v52_1) := by host_keeps hostOps5_1 main_v52_1
    _ = W12 m ρ c (Proc.devRef .tc main_v52_1) := by host_keeps hostOps5 main_v52_1

/-- The first head's output is untouched by everything after the region that writes it. -/
theorem keep_main_v49_10_15 (c : Dev nD) :
    W15 m ρ c (Proc.devRef .tc main_v49) = W10 m ρ c (Proc.devRef .tc main_v49) :=
  calc W15 m ρ c (Proc.devRef .tc main_v49)
    _ = W14 m ρ c (Proc.devRef .tc main_v49) := W15_of_ne m ρ c main_v49 (by decide)
    _ = W13 m ρ c (Proc.devRef .tc main_v49) := by host_keeps hostOps5_1 main_v49
    _ = W12 m ρ c (Proc.devRef .tc main_v49) := by host_keeps hostOps5 main_v49
    _ = W11 m ρ c (Proc.devRef .tc main_v49) := W12_of_ne m ρ c main_v49 (by decide)
    _ = W10 m ρ c (Proc.devRef .tc main_v49) := by host_keeps hostOps4 main_v49

/-! ## Equal arguments give equal values -/

theorem aggOf128_congr {s s' : EdgeWords} {T T' : Mat 50000 128} {d d' : EdgeWords} {k k' : EdgeReals}
    (hs : s = s') (hT : T = T') (hd : d = d') (hk : k = k') :
    aggOf128 (takeRows128 s T) d k = aggOf128 (takeRows128 s' T') d' k' := by
  subst hs hT hd hk; rfl

theorem selfTerm_congr {T T' : Mat 50000 128} {s s' : Mat 50000 1} {b b' : Mat 1 128}
    (hT : T = T') (hs : s = s') (hb : b = b') : selfTerm T s b = selfTerm T' s' b' := by
  subst hT hs hb; rfl

/-! ## The first head: its aggregate at boundary 9, its output at boundary 10 -/

theorem agg0_at9 (c : Dev nD) :
    (W9 m ρ c (Proc.devRef .tc main_v48) : Mat 50000 128) = headAgg (arg0 m c) (arg1 m c) (arg2 m c) (arg3 m c) (arg4 m c) :=
  (agg_head0 (W7 m ρ c)).trans
    (aggOf128_congr (mid_src m ρ c) (mid_proj m ρ c) (mid_dst m ρ c) (mid_coef m ρ c))

theorem self0_at9 (c : Dev nD) :
    (W9 m ρ c (Proc.devRef .tc main_v41_1) : Mat 50000 128) = headSelf (arg0 m c) (arg1 m c) (arg2 m c) (arg3 m c) (arg4 m c) (arg5 m c) :=
  (keep_main_v41_1_7_9 m ρ c).trans (mid_self m ρ c)

theorem out0_at10 (c : Dev nD) :
    (W10 m ρ c (Proc.devRef .tc main_v49) : Mat 50000 128) = headOut (arg0 m c) (arg1 m c) (arg2 m c) (arg3 m c) (arg4 m c) (arg5 m c) :=
  ((W10_arr m ρ c 2).trans (Region3.final (V9 m ρ) c)).trans
    (congrArg₂ (combine (M := 50000) (N := 128)) (agg0_at9 m ρ c) (self0_at9 m ρ c))

/-! ## The second head: its projection region's inputs at boundary 11, outputs at boundary 12 -/

theorem hidden_at11 (c : Dev nD) :
    (W11 m ρ c (Proc.devRef .tc main_v38) : Mat 50000 256) = hidden (arg0 m c) (arg1 m c) (arg2 m c) (arg3 m c) :=
  (keep_main_v38_7_11 m ρ c).trans (mid_hidden m ρ c)

theorem weights1_at11 (c : Dev nD) : (W11 m ρ c (Proc.devRef .tc main_arg6) : Mat 256 128) = arg6 m c :=
  (keep_main_arg6_7_11 m ρ c).trans (mid_arg6 m ρ c)

theorem col1_at11 (c : Dev nD) : (W11 m ρ c (Proc.devRef .tc main_v50) : Mat 50000 1) = selfCol (arg1 m c) :=
  (col_head1 (W10 m ρ c)).trans
    (congrArg (fun v : FVec Ideal S50000 .f32 => shapeCast S50000x1 v Facts₀.shapeCasts_S50000_S50000x1)
      ((keep_main_v27_7_10 m ρ c).trans (mid_selfCoef m ρ c)))

theorem bias1_at11 (c : Dev nD) : (W11 m ρ c (Proc.devRef .tc main_v51) : Mat 1 128) = biasRow128 (arg7 m c) :=
  (bias_head1 (W10 m ρ c)).trans (congrArg biasRow128 ((keep_main_arg7_7_10 m ρ c).trans (mid_arg7 m ρ c)))

theorem proj1_at12 (c : Dev nD) :
    (W12 m ρ c (Proc.devRef .tc main_v52_0) : Mat 50000 128) = headProj (arg0 m c) (arg1 m c) (arg2 m c) (arg3 m c) (arg6 m c) :=
  ((W12_arr m ρ c 4).trans (Region4.final_T (V11 m ρ) c)).trans
    (congrArg₂ (matT (M := 50000) (K := 256) (N := 128)) (hidden_at11 m ρ c) (weights1_at11 m ρ c))

theorem self1_at12 (c : Dev nD) :
    (W12 m ρ c (Proc.devRef .tc main_v52_1) : Mat 50000 128) = headSelf (arg0 m c) (arg1 m c) (arg2 m c) (arg3 m c) (arg6 m c) (arg7 m c) :=
  ((W12_arr m ρ c 5).trans (Region4.final_ST (V11 m ρ) c)).trans
    (selfTerm_congr
      (congrArg₂ (matT (M := 50000) (K := 256) (N := 128)) (hidden_at11 m ρ c) (weights1_at11 m ρ c))
      (col1_at11 m ρ c) (bias1_at11 m ρ c))

/-! ## The second head: its aggregate and self term at boundary 14 -/

theorem agg1_at14 (c : Dev nD) :
    (W14 m ρ c (Proc.devRef .tc main_v59) : Mat 50000 128) = headAgg (arg0 m c) (arg1 m c) (arg2 m c) (arg3 m c) (arg6 m c) :=
  (agg_head1 (W12 m ρ c)).trans
    (aggOf128_congr ((keep_main_v1_7_12 m ρ c).trans (mid_src m ρ c)) (proj1_at12 m ρ c)
      ((keep_main_v3_7_12 m ρ c).trans (mid_dst m ρ c)) ((keep_main_v25_7_12 m ρ c).trans (mid_coef m ρ c)))

theorem self1_at14 (c : Dev nD) :
    (W14 m ρ c (Proc.devRef .tc main_v52_1) : Mat 50000 128) = headSelf (arg0 m c) (arg1 m c) (arg2 m c) (arg3 m c) (arg6 m c) (arg7 m c) :=
  (keep_main_v52_1_12_14 m ρ c).trans (self1_at12 m ρ c)

/-! ## The two results at the last boundary -/

/-- At the last boundary the first result's buffer holds the first head's output. -/
theorem result0 (c : Dev nD) :
    (W15 m ρ c (Proc.devRef .tc main_v49) : Mat 50000 128)
      = headOut (arg0 m c) (arg1 m c) (arg2 m c) (arg3 m c) (arg4 m c) (arg5 m c) :=
  (keep_main_v49_10_15 m ρ c).trans (out0_at10 m ρ c)

/-- At the last boundary the second result's buffer holds the second head's output. -/
theorem result1 (c : Dev nD) :
    (W15 m ρ c (Proc.devRef .tc main_v60) : Mat 50000 128)
      = headOut (arg0 m c) (arg1 m c) (arg2 m c) (arg3 m c) (arg6 m c) (arg7 m c) :=
  ((W15_arr m ρ c 2).trans (Region5.final (V14 m ρ) c)).trans
    (congrArg₂ (combine (M := 50000) (N := 128)) (agg1_at14 m ρ c) (self1_at14 m ρ c))

end Cert.Gcn.Fold

end
-- ==== Proof.SrcRange.lean ====
/-
  The guarded lookup is the plain lookup when every source index names a row.

  A source index is a signed 32-bit word. Wrapping adds 50000 to a negative one. If the word lies in
  [-50000, 50000) the wrapped word lies in [0, 50000), so the range test of the guarded lookup (at least 0, at most
  49999) passes on every edge, the guard selects the looked-up row everywhere, and the fill word is never read.
  The statement's precondition says exactly that range of row 0 of the edge list, on every edge.
-/
import proofs.«430112_j89627377533231_1_alg».proof.Defs
import proofs.«430112_j89627377533231_1_alg».proof.Proof.Gen.Pre_finite_inputs
import proofs.«430112_j89627377533231_1_alg».proof.Proof.KernelValue
import Idealize.ShloMosaic.Lib.ReduceAll
import Idealize.ShloMosaic.Lib.StableHlo.Predicate
import Idealize.ShloMosaic.Lib.ValueIdx

noncomputable section

namespace Cert.Gcn

open Cert.KernelIdeal Cert.KernelIdeal.Facts₀ Cert.KernelIdeal.Facts
open Idealize.ShloMosaic Idealize.ShloMosaic.TcCoe Idealize.ShloMosaic.ValueIdx Idealize.SL.Sem

/-- Every edge's source index, read as a signed word, names a row directly or counts one from the end. -/
def SrcInRange (src : EdgeWords) : Prop :=
  ∀ e : S500000.Idx, -50000 ≤ (src e).toInt ∧ (src e).toInt < 50000

namespace SrcRange

/-- A left fold by `and` that starts at 1 and meets only 1s ends at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- The and-reduction of an array of ones, started at 1, is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

/-- A word in [-50000, 50000), wrapped (50000 added when it is negative), lies in [0, 49999]: both range
    tests of the guarded lookup pass on it. -/
theorem wrap_inRange (a : BitVec 32) (h1 : -50000 ≤ a.toInt) (h2 : a.toInt < 50000) :
    IntOp.andi
      (IntOp.cmpi .sge (Scalar.select (IntOp.cmpi .slt a 0#32) (IntOp.addi a 50000#32) a) 0#32)
      (IntOp.cmpi .sle (Scalar.select (IntOp.cmpi .slt a 0#32) (IntOp.addi a 50000#32) a) 49999#32) = 1#1 := by
  have h0 : (0#32 : BitVec 32).toInt = 0 := by decide
  have h9 : (49999#32 : BitVec 32).toInt = 49999 := by decide
  have h5 : (50000#32 : BitVec 32).toInt = 50000 := by decide
  rw [IntOp.andi_eq_one, IntOp.cmpi_sge, IntOp.cmpi_sle, h0, h9]
  by_cases hc : IntOp.cmpi .slt a 0#32 = 1#1
  · -- a negative word: the wrapped word is the word plus 50000, and the sum does not leave the signed range
    have hneg : a.toInt < 0 := by rw [IntOp.cmpi_slt, h0] at hc; exact hc
    have hw : (Scalar.select (IntOp.cmpi .slt a 0#32) (IntOp.addi a 50000#32) a).toInt = a.toInt + 50000 := by
      rw [hc, select_one]
      show (a + 50000#32).toInt = _
      rw [BitVec.toInt_add, h5]
      exact Int.bmod_eq_of_le (by omega) (by omega)
    rw [hw]; omega
  · -- a nonnegative word is left as it is
    have hnn : 0 ≤ a.toInt := by rw [IntOp.cmpi_slt, h0] at hc; omega
    have hw : Scalar.select (IntOp.cmpi .slt a 0#32) (IntOp.addi a 50000#32) a = a := if_neg hc
    rw [hw]; omega

/-- Under the range of the source indices the range test passes on every edge. -/
theorem inRows_eq_ones (src : EdgeWords) (h : SrcInRange src) : inRows src = fun _ => 1#1 := by
  funext e
  unfold inRows
  refine reduce_andi_ones _ _ _ _ (fun i => ?_) (fun _ => rfl) e
  -- the column's entry at i is the wrapped word of one edge k
  obtain ⟨k, hk⟩ : ∃ k, wrapCol src i
      = Scalar.select (IntOp.cmpi .slt (src k) 0#32) (IntOp.addi (src k) 50000#32) (src k) := ⟨_, rfl⟩
  show IntOp.andi (IntOp.cmpi .sge (wrapCol src i) 0#32) (IntOp.cmpi .sle (wrapCol src i) 49999#32) = 1#1
  rw [hk]
  exact wrap_inRange _ (h k).1 (h k).2

end SrcRange

/-- Under that range the guarded lookup is the plain one, 256 wide. -/
theorem takeRows256_eq (src : EdgeWords) (h : SrcInRange src) (T : Mat 50000 256) :
    takeRows256 src T = lookRows256 src T := by
  funext j
  unfold takeRows256
  rw [SrcRange.inRows_eq_ones src h]
  exact select_one _ _

/-- Under that range the guarded lookup is the plain one, 128 wide. -/
theorem takeRows128_eq (src : EdgeWords) (h : SrcInRange src) (T : Mat 50000 128) :
    takeRows128 src T = lookRows128 src T := by
  funext j
  unfold takeRows128
  rw [SrcRange.inRows_eq_ones src h]
  exact select_one _ _

/-- The statement's precondition gives the range of every edge's source index, on every device. -/
theorem srcInRange_of_pre (m : (ℓ : Loc nD τ sig) → Buf (Elt Ideal) ℓ) (hpre : Cert.Pre_KernelIdeal m) (c : Dev nD) :
    SrcInRange (srcOf (m ((c.tc : Thread nD τ).loc main_arg1))) := by
  intro e
  -- the precondition's word on this device is 1; it is the conjunction of the earlier conjuncts and the range test
  have h0 := congrFun (hpre c) ix0
  have h1 := (IntOp.andi_eq_one.1 h0).2
  -- the range test is an and-reduction over all edges: it is 1 at edge e
  haveI : Subsingleton Cert.Pre_finite_inputs.S_.Idx := ⟨fun a b => funext fun d => d.elim0⟩
  have h2 := Host.reduce_andi_all _ _ _ _ _ h1 e
  -- at edge e it is the conjunction of the two signed comparisons of the source word with -50000 and 50000
  obtain ⟨hge, hlt⟩ := IntOp.andi_eq_one.1 h2
  have hlo : (4294917296#32 : BitVec 32).toInt = -50000 := by decide
  have hhi : (50000#32 : BitVec 32).toInt = 50000 := by decide
  -- the precondition's slice and reshape of row 0 is the source array itself
  have hge' : (4294917296#32 : BitVec 32).toInt ≤ (srcOf (m ((c.tc : Thread nD τ).loc main_arg1)) e).toInt :=
    IntOp.cmpi_sge.1 hge
  have hlt' : (srcOf (m ((c.tc : Thread nD τ).loc main_arg1)) e).toInt < (50000#32 : BitVec 32).toInt :=
    IntOp.cmpi_slt.1 hlt
  rw [hlo] at hge'
  rw [hhi] at hlt'
  exact ⟨hge', hlt'⟩

end Cert.Gcn

end
-- ==== Proof.RefJoin.lean ====
/-
  The reference program's two results are the same functions of the arguments.

  The reference projects with one whole matrix product, looks each edge's source row up without a guard,
  scales and aggregates exactly as the kernel program does, and then adds the aggregate to the self-loop
  share first and the bias last. The whole product is the blocked product entry by entry; the plain lookup is
  the guarded one when every source index names a row; the two groupings of the three summands are one
  number. Layer by layer the reference's stages are therefore the kernel program's values.
-/
import proofs.«430112_j89627377533231_1_alg».proof.Proof.Gen.ReferenceIdeal.Read
import proofs.«430112_j89627377533231_1_alg».proof.Proof.KernelValue
import proofs.«430112_j89627377533231_1_alg».proof.Proof.SrcRange
import proofs.«430112_j89627377533231_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.Gcn

open Idealize.ShloMosaic Idealize.ShloMosaic.ValueIdx
open Cert.ReferenceIdeal.Read

/-! ## A vector laid out as a column, or as a row, read at an entry -/

/-- A vector of `n` entries recast as an `n × 1` column: entry `(i, 0)` is the vector's entry `i` (both sit at
    row-major position `i`). -/
theorem column_at {n : ℕ} (v : (⟨1, ![n]⟩ : Shape).Idx → EReal)
    (h : (⟨1, ![n]⟩ : Shape).ShapeCasts ⟨2, ![n, 1]⟩) (i : Fin n) :
    shapeCast ⟨2, ![n, 1]⟩ v h (ix2 i 0) = v (ix1 i) :=
  shapeCast_apply v h (ix2 i 0) (ix1 i) (by
    rw [Shape.rowMajor_val_one, Shape.rowMajor_val_two]
    show i.val = i.val * 1 + 0
    omega)

/-- A vector of `n` entries recast as a `1 × n` row: entry `(0, i)` is the vector's entry `i`. -/
theorem row_at {n : ℕ} (v : (⟨1, ![n]⟩ : Shape).Idx → EReal)
    (h : (⟨1, ![n]⟩ : Shape).ShapeCasts ⟨2, ![1, n]⟩) (i : Fin n) :
    shapeCast ⟨2, ![1, n]⟩ v h (ix2 0 i) = v (ix1 i) :=
  shapeCast_apply v h (ix2 0 i) (ix1 i) (by
    rw [Shape.rowMajor_val_one, Shape.rowMajor_val_two]
    show i.val = 0 * n + i.val
    omega)

section Layers

variable (x0 : Mat 50000 512) (x1 : Edges) (x2 : Mat 512 256) (x3 : FVec Ideal Cert.KernelIdeal.S256 .f32)
  (x4 : Mat 256 128) (x5 : FVec Ideal Cert.KernelIdeal.S128 .f32) (x6 : Mat 256 128) (x7 : FVec Ideal Cert.KernelIdeal.S128 .f32)

/-! ## The first layer -/

/-- The reference's whole product is the projection, entry by entry. -/
theorem ref_proj1 : val_main_v28 (F := Ideal) x0 x2 = proj1 x0 x2 :=
  funext fun j => Cert.PlainDot.dotGeneral_apply _ rfl none .single x0 x2 j

/-- The reference's zero array, destination column and looked-up rows are the kernel program's, piece by piece
    (the same operations over the other program's copies of the shape facts). -/
theorem ref_zero_l1 : val_main_v39 (F := Ideal)
    = broadcastInDim Cert.KernelIdeal.S50000x256 ![] Cert.KernelIdeal.Facts₀.bcast_S_S50000x256 (constant (F := Ideal) Cert.KernelIdeal.S_ .f32 0x00000000#32) := rfl
theorem ref_dst_l1 : val_main_v40 (F := Ideal) x1
    = broadcastInDim Cert.KernelIdeal.S500000x1 ![0] Cert.KernelIdeal.Facts₀.bcast_S500000_S500000x1_0 (dstOf x1) := rfl
theorem ref_look_l1 : val_main_v35 (F := Ideal) x0 x1 x2
    = lookRows256 (srcOf x1) (val_main_v28 (F := Ideal) x0 x2) := rfl

/-- The reference's aggregate is the aggregate of the plainly looked-up rows of its product. -/
theorem ref_agg1 : val_main_v41 (F := Ideal) x0 x1 x2
    = aggOf256 (lookRows256 (srcOf x1) (val_main_v28 (F := Ideal) x0 x2)) (dstOf x1) (edgeCoef x1) := by
  unfold val_main_v41 aggOf256
  rw [ref_zero_l1, ref_dst_l1, ← ref_look_l1]
  rfl

/-- The self-loop coefficient the reference broadcasts over a row is the column's entry of that row. -/
theorem ref_selfCoef_at (n1 : ℕ) (j : (⟨2, ![50000, n1]⟩ : Shape).Idx) :
    val_main_v27 (F := Ideal) x1 (ix1 (j 0)) = selfCol x1 (ix2 (j 0) 0) :=
  (column_at (n := 50000) (selfCoef x1) Cert.KernelIdeal.Facts₀.shapeCasts_S50000_S50000x1 (j 0)).symm

/-- The reference's hidden features are the kernel program's. -/
theorem ref_hidden (h : SrcInRange (srcOf x1)) :
    val_main_v49 (F := Ideal) x0 x1 x2 x3 = hidden x0 x1 x2 x3 := by
  unfold hidden agg1 self1
  rw [takeRows256_eq _ h, ← ref_proj1, ← ref_agg1, combineRelu_selfTerm]
  funext j
  rw [val_main_v49_apply, val_main_v48_apply, val_main_v45_apply, val_main_v44_apply, val_main_v43_apply,
    val_main_v42_apply, val_main_v47_apply, val_main_v46_apply, val_main_call0_v0_apply, val_main_call0_cst_apply]
  have hrow : idx_main_v42 (idx_main_v43 j) = ix1 (j 0) := funext fun a => match a with | ⟨0, _⟩ => rfl
  have es : val_main_v27 (F := Ideal) x1 (idx_main_v42 (idx_main_v43 j)) = selfCol x1 (ix2 (j 0) 0) :=
    (congrArg (val_main_v27 (F := Ideal) x1) hrow).trans (ref_selfCoef_at x1 256 j)
  have hcol : idx_main_v46 (idx_main_v47 j) = ix1 (j 1) := funext fun a => match a with | ⟨0, _⟩ => rfl
  have eb : x3 (idx_main_v46 (idx_main_v47 j)) = biasRow256 x3 (ix2 0 (j 1)) :=
    (congrArg x3 hcol).trans (row_at (n := 256) x3 Cert.KernelIdeal.Facts₀.shapeCasts_S256_S1x256 (j 1)).symm
  rw [es, eb]
  show max ((val_main_v41 (F := Ideal) x0 x1 x2 j + val_main_v28 (F := Ideal) x0 x2 j * selfCol x1 (ix2 (j 0) 0))
      + biasRow256 x3 (ix2 0 (j 1))) (Ideal.ofBits .f32 0x00000000#32) = _
  rw [Ideal.ofBits_zero_f32]
  rfl

/-! ## The two heads of the second layer -/

/-- The first head's whole product is its projection of the hidden features. -/
theorem ref_proj_head0 (h : SrcInRange (srcOf x1)) :
    val_main_v50 (F := Ideal) x0 x1 x2 x3 x4 = headProj x0 x1 x2 x3 x4 := by
  unfold headProj
  rw [← ref_hidden x0 x1 x2 x3 h]
  exact funext fun j => Cert.PlainDot.dotGeneral_apply _ rfl none .single _ x4 j

/-- The reference's zero array, destination column and looked-up rows are the kernel program's, piece by piece
    (the same operations over the other program's copies of the shape facts). -/
theorem ref_zero_h0 : val_main_v61 (F := Ideal)
    = broadcastInDim Cert.KernelIdeal.S50000x128 ![] Cert.KernelIdeal.Facts₀.bcast_S_S50000x128 (constant (F := Ideal) Cert.KernelIdeal.S_ .f32 0x00000000#32) := rfl
theorem ref_dst_h0 : val_main_v62 (F := Ideal) x1
    = broadcastInDim Cert.KernelIdeal.S500000x1 ![0] Cert.KernelIdeal.Facts₀.bcast_S500000_S500000x1_0 (dstOf x1) := rfl
theorem ref_look_h0 : val_main_v57 (F := Ideal) x0 x1 x2 x3 x4
    = lookRows128 (srcOf x1) (val_main_v50 (F := Ideal) x0 x1 x2 x3 x4) := rfl

/-- The first head's aggregate is the aggregate of the plainly looked-up rows of its product. -/
theorem ref_agg_head0 : val_main_v63 (F := Ideal) x0 x1 x2 x3 x4
    = aggOf128 (lookRows128 (srcOf x1) (val_main_v50 (F := Ideal) x0 x1 x2 x3 x4)) (dstOf x1) (edgeCoef x1) := by
  unfold val_main_v63 aggOf128
  rw [ref_zero_h0, ref_dst_h0, ← ref_look_h0]
  rfl

/-- The reference's first result is the first head's output. -/
theorem ref_out0 (h : SrcInRange (srcOf x1)) :
    val_main_v70 (F := Ideal) x0 x1 x2 x3 x4 x5 = headOut x0 x1 x2 x3 x4 x5 := by
  unfold headOut headAgg headSelf
  rw [takeRows128_eq _ h, ← ref_proj_head0 x0 x1 x2 x3 x4 h, ← ref_agg_head0, combine_selfTerm]
  funext j
  rw [val_main_v70_apply, val_main_v67_apply, val_main_v66_apply, val_main_v65_apply, val_main_v64_apply,
    val_main_v69_apply, val_main_v68_apply]
  have hrow : idx_main_v64 (idx_main_v65 j) = ix1 (j 0) := funext fun a => match a with | ⟨0, _⟩ => rfl
  have es : val_main_v27 (F := Ideal) x1 (idx_main_v64 (idx_main_v65 j)) = selfCol x1 (ix2 (j 0) 0) :=
    (congrArg (val_main_v27 (F := Ideal) x1) hrow).trans (ref_selfCoef_at x1 128 j)
  have hcol : idx_main_v68 (idx_main_v69 j) = ix1 (j 1) := funext fun a => match a with | ⟨0, _⟩ => rfl
  have eb : x5 (idx_main_v68 (idx_main_v69 j)) = biasRow128 x5 (ix2 0 (j 1)) :=
    (congrArg x5 hcol).trans (row_at (n := 128) x5 Cert.KernelIdeal.Facts₀.shapeCasts_S128_S1x128 (j 1)).symm
  rw [es, eb]
  rfl

/-- The second head's whole product is its projection of the hidden features. -/
theorem ref_proj_head1 (h : SrcInRange (srcOf x1)) :
    val_main_v71 (F := Ideal) x0 x1 x2 x3 x6 = headProj x0 x1 x2 x3 x6 := by
  unfold headProj
  rw [← ref_hidden x0 x1 x2 x3 h]
  exact funext fun j => Cert.PlainDot.dotGeneral_apply _ rfl none .single _ x6 j

/-- The reference's zero array, destination column and looked-up rows are the kernel program's, piece by piece
    (the same operations over the other program's copies of the shape facts). -/
theorem ref_zero_h1 : val_main_v82 (F := Ideal)
    = broadcastInDim Cert.KernelIdeal.S50000x128 ![] Cert.KernelIdeal.Facts₀.bcast_S_S50000x128 (constant (F := Ideal) Cert.KernelIdeal.S_ .f32 0x00000000#32) := rfl
theorem ref_dst_h1 : val_main_v83 (F := Ideal) x1
    = broadcastInDim Cert.KernelIdeal.S500000x1 ![0] Cert.KernelIdeal.Facts₀.bcast_S500000_S500000x1_0 (dstOf x1) := rfl
theorem ref_look_h1 : val_main_v78 (F := Ideal) x0 x1 x2 x3 x6
    = lookRows128 (srcOf x1) (val_main_v71 (F := Ideal) x0 x1 x2 x3 x6) := rfl

/-- The second head's aggregate is the aggregate of the plainly looked-up rows of its product. -/
theorem ref_agg_head1 : val_main_v84 (F := Ideal) x0 x1 x2 x3 x6
    = aggOf128 (lookRows128 (srcOf x1) (val_main_v71 (F := Ideal) x0 x1 x2 x3 x6)) (dstOf x1) (edgeCoef x1) := by
  unfold val_main_v84 aggOf128
  rw [ref_zero_h1, ref_dst_h1, ← ref_look_h1]
  rfl

/-- The reference's second result is the second head's output. -/
theorem ref_out1 (h : SrcInRange (srcOf x1)) :
    val_main_v91 (F := Ideal) x0 x1 x2 x3 x6 x7 = headOut x0 x1 x2 x3 x6 x7 := by
  unfold headOut headAgg headSelf
  rw [takeRows128_eq _ h, ← ref_proj_head1 x0 x1 x2 x3 x6 h, ← ref_agg_head1, combine_selfTerm]
  funext j
  rw [val_main_v91_apply, val_main_v88_apply, val_main_v87_apply, val_main_v86_apply, val_main_v85_apply,
    val_main_v90_apply, val_main_v89_apply]
  have hrow : idx_main_v85 (idx_main_v86 j) = ix1 (j 0) := funext fun a => match a with | ⟨0, _⟩ => rfl
  have es : val_main_v27 (F := Ideal) x1 (idx_main_v85 (idx_main_v86 j)) = selfCol x1 (ix2 (j 0) 0) :=
    (congrArg (val_main_v27 (F := Ideal) x1) hrow).trans (ref_selfCoef_at x1 128 j)
  have hcol : idx_main_v89 (idx_main_v90 j) = ix1 (j 1) := funext fun a => match a with | ⟨0, _⟩ => rfl
  have eb : x7 (idx_main_v89 (idx_main_v90 j)) = biasRow128 x7 (ix2 0 (j 1)) :=
    (congrArg x7 hcol).trans (row_at (n := 128) x7 Cert.KernelIdeal.Facts₀.shapeCasts_S128_S1x128 (j 1)).symm
  rw [es, eb]
  rfl

end Layers

end Cert.Gcn

end
-- ==== Proof.lean ====
/-
  A three-layer graph-convolution encoder: its Pallas kernel program against its jnp reference, over the
  extended reals.

  Both programs compute, from an edge list, each node's degree (in-edges plus a self loop), the per-edge
  coefficient (the product of the endpoints' inverse square-root degrees) and the per-node self-loop
  coefficient (the reciprocal of the degree), by the same host operations. A layer then projects the node
  features by a weight matrix, looks each edge's source row of the projection up, scales it by the edge's
  coefficient, adds it into the destination's row, and adds the node's own projection times its self-loop
  coefficient and the bias; the first layer clamps at zero, and two such heads over the clamped features are
  the two results.

  The kernel program runs the projection and the final sum of each layer in row-blocked regions (25 points of
  2000 rows) and everything indexed by the graph on the host, between the regions. It differs from the
  reference in three ways, none of which changes a result entry:
    * it multiplies block by block where the reference multiplies once: the same sum per entry (a change of
      float format is the identity here, so the narrowing before the product is too);
    * its row lookup is guarded by a range test with a fill word, where the reference's clamps: the same row
      wherever the source index names a row, which the precondition says of every edge (outside that range
      the reference itself reads a row the index does not name);
    * it adds the bias to the self-loop share first and the aggregate last, where the reference adds the
      aggregate first and the bias last: addition on the extended reals is associative.
  The finiteness of the float inputs is not used.

  The three frames are the generated ones (the reference's is its generated run with the results dropped);
  the ideal pass rewrote nothing, so there is nothing to preserve. For the value claim the kernel program's
  run is the generated launch with the two result buffers named (KernelLaunch), its last boundary read back
  through the segments to functions of the arguments (KernelFold over the six regions' whole-array values),
  and the reference's generated run read stage by stage to the same functions (RefJoin).
-/
import proofs.«430112_j89627377533231_1_alg».proof.Defs
import proofs.«430112_j89627377533231_1_alg».proof.Proof.Gen.Kernel
import proofs.«430112_j89627377533231_1_alg».proof.Proof.Gen.Kernel.Skeleton
import proofs.«430112_j89627377533231_1_alg».proof.Proof.Gen.Kernel.Launch
import proofs.«430112_j89627377533231_1_alg».proof.Proof.Gen.Kernel.Points
import proofs.«430112_j89627377533231_1_alg».proof.Proof.Gen.Kernel.Frame
import proofs.«430112_j89627377533231_1_alg».proof.Proof.Gen.KernelIdeal
import proofs.«430112_j89627377533231_1_alg».proof.Proof.Gen.KernelIdeal.Skeleton
import proofs.«430112_j89627377533231_1_alg».proof.Proof.Gen.KernelIdeal.Launch
import proofs.«430112_j89627377533231_1_alg».proof.Proof.Gen.KernelIdeal.Points
import proofs.«430112_j89627377533231_1_alg».proof.Proof.Gen.KernelIdeal.Frame
import proofs.«430112_j89627377533231_1_alg».proof.Proof.Gen.ReferenceIdeal
import proofs.«430112_j89627377533231_1_alg».proof.Proof.Gen.ReferenceIdeal.Run
import proofs.«430112_j89627377533231_1_alg».proof.Proof.Gen.ReferenceIdeal.Read
import proofs.«430112_j89627377533231_1_alg».proof.Proof.Gen.Pre_finite_inputs
import proofs.«430112_j89627377533231_1_alg».proof.Proof.KernelLaunch
import proofs.«430112_j89627377533231_1_alg».proof.Proof.KernelFold
import proofs.«430112_j89627377533231_1_alg».proof.Proof.SrcRange
import proofs.«430112_j89627377533231_1_alg».proof.Proof.RefJoin
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, with every edge's source index naming a row, both programs end
    with the two heads' outputs of the arguments in their two result buffers. -/
theorem algebraic : Cert.algebraic_KernelIdeal_ReferenceIdeal := by
  intro m ρ m' ρ' hpre hagree
  refine ⟨fun c => Cert.Gcn.headOut (Cert.Gcn.Fold.arg0 m c) (Cert.Gcn.Fold.arg1 m c) (Cert.Gcn.Fold.arg2 m c) (Cert.Gcn.Fold.arg3 m c) (Cert.Gcn.Fold.arg4 m c) (Cert.Gcn.Fold.arg5 m c),
    fun c => Cert.Gcn.headOut (Cert.Gcn.Fold.arg0 m c) (Cert.Gcn.Fold.arg1 m c) (Cert.Gcn.Fold.arg2 m c) (Cert.Gcn.Fold.arg3 m c) (Cert.Gcn.Fold.arg6 m c) (Cert.Gcn.Fold.arg7 m c), ?_, ?_⟩
  · exact (θ_run Cert.KernelIdeal.defs _ _).mono
      (fun r h c => ⟨(h c).1.trans (Cert.Gcn.Fold.result0 m ρ c), (h c).2.1.trans (Cert.Gcn.Fold.result1 m ρ c), (h c).2.2⟩)
      (Cert.Gcn.KernelLaunch.run_results (F := Ideal) m ρ)
  · refine (θ_run Cert.ReferenceIdeal.defs _ _).mono
      (fun r h c => ⟨(h c).1.trans ?_, (h c).2.1.trans ?_, (h c).2.2⟩)
      (Cert.ReferenceIdeal.Value.run (F := Ideal) m' ρ')
    · rw [Cert.ReferenceIdeal.Read.val_main_v70_eq, (hagree c).1, (hagree c).2.1, (hagree c).2.2.1, (hagree c).2.2.2.1,
        (hagree c).2.2.2.2.1, (hagree c).2.2.2.2.2.1]
      exact Cert.Gcn.ref_out0 _ _ _ _ _ _ (Cert.Gcn.srcInRange_of_pre m hpre c)
    · rw [Cert.ReferenceIdeal.Read.val_main_v91_eq, (hagree c).1, (hagree c).2.1, (hagree c).2.2.1, (hagree c).2.2.2.1,
        (hagree c).2.2.2.2.2.2.1, (hagree c).2.2.2.2.2.2.2]
      exact Cert.Gcn.ref_out1 _ _ _ _ _ _ (Cert.Gcn.srcInRange_of_pre m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
